-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x65536 : Shape := ⟨2, ![512, 65536]⟩
abbrev S_ : Shape := ⟨0, ![]⟩

class Facts : Prop where
  bcast_S_S512x65536 : S_.BroadcastsInDim S512x65536 (![] : Fin 0 → Fin S512x65536.rank)
  reducesTo_S512x65536_S_d0_1 : S512x65536.ReducesTo [0, 1] S_
  h_S_ : 0 < S_.numel

variable [Facts]

def fn {F : FTy → Type} [FloatOps F] (main_arg0 : FVec F S512x65536 .f32) (main_arg1 : FVec F S512x65536 .f32) : IVec S_ 1 :=
  let main_v0 : FVec F S512x65536 .f32 := Host.absf main_arg0
  let main_cst : FVec F S_ .f32 := constant S_ .f32 0x7F800000#32
  let main_v1 : FVec F S512x65536 .f32 := broadcastInDim S512x65536 ![] bcast_S_S512x65536 main_cst
  let main_v2 : IVec S512x65536 1 := cmpf .olt main_v0 main_v1
  let main_c : IVec S_ 1 := constantI S_ 1 1#1
  let main_v3 : IVec S_ 1 := (fun x v => Host.reduce IntOp.andi x v reducesTo_S512x65536_S_d0_1 h_S_) main_v2 main_c
  let main_v4 : FVec F S512x65536 .f32 := Host.absf main_arg1
  let main_cst_0 : FVec F S_ .f32 := constant S_ .f32 0x7F800000#32
  let main_v5 : FVec F S512x65536 .f32 := broadcastInDim S512x65536 ![] bcast_S_S512x65536 main_cst_0
  let main_v6 : IVec S512x65536 1 := cmpf .olt main_v4 main_v5
  let main_c_1 : IVec S_ 1 := constantI S_ 1 1#1
  let main_v7 : IVec S_ 1 := (fun x v => Host.reduce IntOp.andi x v reducesTo_S512x65536_S_d0_1 h_S_) main_v6 main_c_1
  let main_v8 : IVec S_ 1 := andi main_v3 main_v7
  main_v8
-- ==== Kernel.lean ====
abbrev S512x65536 : Shape := ⟨2, ![512, 65536]⟩
abbrev S512x5 : Shape := ⟨2, ![512, 5]⟩
abbrev S256x4096 : Shape := ⟨2, ![256, 4096]⟩
abbrev S256x5 : Shape := ⟨2, ![256, 5]⟩
abbrev S256x1 : Shape := ⟨2, ![256, 1]⟩
abbrev S256 : Shape := ⟨1, ![256]⟩
abbrev S512x1 : Shape := ⟨2, ![512, 1]⟩
abbrev S512 : Shape := ⟨1, ![512]⟩
abbrev S_ : Shape := ⟨0, ![]⟩

abbrev nBuf : Space → Nat
  | .hbm => 52
  | .vmem => 11
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S512x5, .f32⟩
  | .hbm, ⟨3, _⟩ => ⟨S512x1, .f32⟩
  | .hbm, ⟨4, _⟩ => ⟨S512, .f32⟩
  | .hbm, ⟨5, _⟩ => ⟨S512x1, .f32⟩
  | .hbm, ⟨6, _⟩ => ⟨S512, .f32⟩
  | .hbm, ⟨7, _⟩ => ⟨S512x1, .f32⟩
  | .hbm, ⟨8, _⟩ => ⟨S512, .f32⟩
  | .hbm, ⟨9, _⟩ => ⟨S512x1, .f32⟩
  | .hbm, ⟨10, _⟩ => ⟨S512, .f32⟩
  | .hbm, ⟨11, _⟩ => ⟨S512x1, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x5, .f32⟩
  | .local _ .vmem, ⟨5, _⟩ => ⟨S256x5, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | _, _ => ⟨S512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_28 : BitVec 32 := 0#32
  let v45 : BitVec 1 := Scalar.cmpi .ne v44 c0_i32_28
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  concatenates_S256x1_S256x1_S256x1_S256x1_S256x1_S256x5_d1 : Shape.Concatenates [S256x1, S256x1, S256x1, S256x1, S256x1] S256x5 1
  inb_S256x5_S256x5_0_0 : ∀ a, (![0, 0] : Fin 2 → Nat) a + S256x5.size a ≤ S256x5.size a
  h_S256x5 : 0 < S256x5.numel
  slices_S512x5_S512x1_0_0 : S512x5.Slices ![0, 0] S512x1
  shapeCasts_S512x1_S512 : S512x1.ShapeCasts S512
  slices_S512x5_S512x1_0_1 : S512x5.Slices ![0, 1] S512x1
  slices_S512x5_S512x1_0_2 : S512x5.Slices ![0, 2] S512x1
  slices_S512x5_S512x1_0_3 : S512x5.Slices ![0, 3] S512x1
  slices_S512x5_S512x1_0_4 : S512x5.Slices ![0, 4] S512x1
  bcast_S_S512 : S_.BroadcastsInDim S512 (![] : Fin 0 → Fin S512.rank)
  reducesTo_S512_S_d0 : S512.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S512x65536.size a
  hwx0_0 : ∀ i : grid0.Coords, EltTy.bits .f32 = 32 ∨ (Rect.block (s := S512x65536) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S512x65536.size a
  hwx0_1 : ∀ i : grid0.Coords, EltTy.bits .f32 = 32 ∨ (Rect.block (s := S512x65536) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x5.size a ≤ S512x5.size a
  hwx0_2 : ∀ i : grid0.Coords, EltTy.bits .f32 = 32 ∨ (Rect.block (s := S512x5) S256x5.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x65536 : Shape := ⟨2, ![512, 65536]⟩
abbrev S_ : Shape := ⟨0, ![]⟩
abbrev S512 : Shape := ⟨1, ![512]⟩
abbrev S512x1 : Shape := ⟨2, ![512, 1]⟩

abbrev nBuf : Space → Nat
  | .hbm => 54
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S512x65536, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S512x1, .f32⟩
  | .hbm, ⟨13, _⟩ => ⟨S512x65536, .f32⟩
  | .hbm, ⟨14, _⟩ => ⟨S512x65536, .f32⟩
  | .hbm, ⟨15, _⟩ => ⟨S512x1, .f32⟩
  | .hbm, ⟨16, _⟩ => ⟨S512x65536, .f32⟩
  | .hbm, ⟨17, _⟩ => ⟨S512x65536, .f32⟩
  | .hbm, ⟨18, _⟩ => ⟨S512x65536, .f32⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512x65536, .f32⟩
  | .hbm, ⟨25, _⟩ => ⟨S_, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512x65536, .f32⟩
  | .hbm, ⟨31, _⟩ => ⟨S_, .f32⟩
  | .hbm, ⟨32, _⟩ => ⟨S512, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_11 : Ref sig .tc := ⟨.hbm, 47, rfl⟩
abbrev main_v33 : Ref sig .tc := ⟨.hbm, 48, rfl⟩
abbrev main_v34 : Ref sig .tc := ⟨.hbm, 49, rfl⟩
abbrev main_cst_12 : Ref sig .tc := ⟨.hbm, 50, rfl⟩
abbrev main_v35 : Ref sig .tc := ⟨.hbm, 51, rfl⟩
abbrev main_cst_13 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  reducesTo_S512x65536_S512_d1 : S512x65536.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x65536_0_1 : S512x1.BroadcastsInDim S512x65536 (![0, 1] : Fin 2 → Fin S512x65536.rank)
  reducesTo_S512_S_d0 : S512.ReducesTo [0] S_

variable [Facts₀]

class Facts : Prop extends Facts₀ where

variable [Facts]
-- ==== Proof.Stats.lean ====
/-
  The concordance statistics of two 512 × 65536 arrays, at the ideal values.

  For a row r write Σx = Σ_j x(r,j), Σxy = Σ_j x(r,j)·y(r,j), T = 65536.  One program keeps the five raw sums per
  row and forms  mean = Σx / T,  cov(x,y) = Σxy / T − mean_x · mean_y  (the variances are cov(x,x), cov(y,y));
  the other first centres each row at its mean and averages the centred products,
  cov(x,y) = (Σ_j (x(r,j) − mean_x)(y(r,j) − mean_y)) / T.  Both then feed the same last stretch
      mean_r ( 1 − 2·cov / (var_x + var_y + (mean_x − mean_y)² + ε) ),
  written here once, as the operations spell it, so that neither side ever has to open it.
-/
import Idealize.ShloMosaic.PureOps
import Idealize.ShloMosaic.PureOps.Ideal
import Idealize.ShloMosaic.PureOps.Ideal.Laws
import Idealize.ShloMosaic.PureOps.Contract
import Idealize.ShloMosaic.Lib.ValueIdx

noncomputable section

namespace Cert.Stats

open Idealize.ShloMosaic Idealize.ShloMosaic.ValueIdx
open scoped BigOperators

abbrev S512x65536 : Shape := ⟨2, ![512, 65536]⟩
abbrev S512x5 : Shape := ⟨2, ![512, 5]⟩
abbrev S512 : Shape := ⟨1, ![512]⟩
abbrev S_ : Shape := ⟨0, ![]⟩

theorem bcast_S_S512 : S_.BroadcastsInDim S512 (![] : Fin 0 → Fin S512.rank) := by decide
theorem reducesTo_S512_S_d0 : S512.ReducesTo [0] S_ := by decide
theorem h_S_ : 0 < S_.numel := by decide

/-- The last stretch both programs share, from the two means, the two variances and the covariance (one entry per
    row) to the scalar result: the mean over the rows of 1 − 2·cov / (var_x + var_y + (mean_x − mean_y)² + ε). -/
def tailV (mx my vx vy cv : FVec Ideal S512 .f32) : FVec Ideal S_ .f32 :=
  Host.divf (F := Ideal)
    (Host.reduceAdd (F := Ideal)
      (subf (broadcastInDim S512 ![] bcast_S_S512 (constant (F := Ideal) S_ .f32 0x3F800000#32))
        (Host.divf (F := Ideal)
          (mulf (broadcastInDim S512 ![] bcast_S_S512 (constant (F := Ideal) S_ .f32 0x40000000#32)) cv)
          (addf (addf (addf vx vy) (mulf (subf mx my) (subf mx my)))
            (broadcastInDim S512 ![] bcast_S_S512 (constant (F := Ideal) S_ .f32 0x322BCC77#32)))))
      (constant (F := Ideal) S_ .f32 0x00000000#32) reducesTo_S512_S_d0 h_S_)
    (constant (F := Ideal) S_ .f32 0x44000000#32)

/-- The row length as the programs write it: the f32 pattern of 65536. -/
def T : EReal := Ideal.ofBits .f32 0x47800000#32

/-- The sum of row r. -/
def rsum (a : S512x65536.Idx → EReal) (r : Fin 512) : EReal := ∑ j : Fin 65536, a (ix2 r j)

/-- The sum over row r of the products of two arrays. -/
def rsum2 (a b : S512x65536.Idx → EReal) (r : Fin 512) : EReal := ∑ j : Fin 65536, a (ix2 r j) * b (ix2 r j)

/-! ### From the raw sums -/

/-- A row's mean from its raw sum. -/
def meanK (a : S512x65536.Idx → EReal) (r : Fin 512) : EReal := Ideal.div (rsum a r) T

/-- A row's covariance from the raw sums: the averaged products less the product of the means. -/
def covK (a b : S512x65536.Idx → EReal) (r : Fin 512) : EReal :=
  Ideal.div (rsum2 a b r) T - meanK a r * meanK b r

/-! ### From the centred rows (each sum taken from the initial value 0) -/

/-- A row's mean, the sum started at 0. -/
def meanR (a : S512x65536.Idx → EReal) (r : Fin 512) : EReal := Ideal.div (0 + rsum a r) T

/-- A row's covariance as the average of the centred products. -/
def covR (a b : S512x65536.Idx → EReal) (r : Fin 512) : EReal :=
  Ideal.div (0 + ∑ j : Fin 65536, (a (ix2 r j) - meanR a r) * (b (ix2 r j) - meanR b r)) T

/-- The result from the raw sums. -/
def resultK (x y : S512x65536.Idx → EReal) : FVec Ideal S_ .f32 :=
  tailV (fun i => meanK x (i 0)) (fun i => meanK y (i 0)) (fun i => covK x x (i 0)) (fun i => covK y y (i 0))
    (fun i => covK x y (i 0))

/-- The result from the centred rows. -/
def resultR (x y : S512x65536.Idx → EReal) : FVec Ideal S_ .f32 :=
  tailV (fun i => meanR x (i 0)) (fun i => meanR y (i 0)) (fun i => covR x x (i 0)) (fun i => covR y y (i 0))
    (fun i => covR x y (i 0))

end Cert.Stats

end
-- ==== Proof.Bridge.lean ====
/-
  The bridge between the two ways of forming a row's statistics, over the reals.

  With N terms, μ = (Σ_j a_j)/N and ν = (Σ_j b_j)/N,
      (Σ_j (a_j − μ)(b_j − ν)) / N = (Σ_j a_j b_j) / N − μ·ν :
  expanding the product, the two mixed sums are μ·Σb = N·μ·ν and ν·Σa = N·μ·ν, and the constant sum is N·μ·ν.
  At the ideal values a division by the nonzero real N is the product with 1/N, and sums, products and
  differences of reals embedded in the extended reals are embedded reals, so the identity is the real one.
-/
import proofs.«160888_j45646912422065_1_alg».proof.Proof.Stats
import Mathlib.Data.EReal.Basic
import Mathlib.Data.EReal.Operations
import Mathlib.Algebra.BigOperators.Group.Finset.Basic
import Mathlib.Algebra.BigOperators.Ring.Finset
import Mathlib.Data.Fintype.Card
import Mathlib.Tactic.Ring
import Mathlib.Tactic.FieldSimp
import Mathlib.Tactic.NormNum

noncomputable section

namespace Cert.Stats

open Idealize.ShloMosaic Idealize.ShloMosaic.ValueIdx
open scoped BigOperators

/-- The embedding of the reals in the extended reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The covariance identity over the reals: the average of the centred products is the average of the products
    less the product of the means, for any finite index type with N ≠ 0 elements. -/
theorem cov_real {ι : Type*} [Fintype ι] (α β : ι → ℝ) (N : ℝ) (hN : (Fintype.card ι : ℝ) = N) (h0 : N ≠ 0) :
    (∑ j, (α j - (∑ k, α k) * (1 / N)) * (β j - (∑ k, β k) * (1 / N))) * (1 / N)
      = (∑ j, α j * β j) * (1 / N) - (∑ k, α k) * (1 / N) * ((∑ k, β k) * (1 / N)) := by
  have hexp : ∑ j, (α j - (∑ k, α k) * (1 / N)) * (β j - (∑ k, β k) * (1 / N))
      = (∑ j, α j * β j) - (∑ k, α k) * (1 / N) * (∑ k, β k) - (∑ k, α k) * ((∑ k, β k) * (1 / N))
        + N * ((∑ k, α k) * (1 / N) * ((∑ k, β k) * (1 / N))) := by
    simp only [sub_mul, mul_sub, Finset.sum_sub_distrib, ← Finset.mul_sum, ← Finset.sum_mul, Finset.sum_const,
      Finset.card_univ, nsmul_eq_mul, hN]
    ring
  rw [hexp]
  field_simp
  ring

/-- The same identity at the ideal values: every entry an embedded real, every division by the embedded N. -/
theorem cov_bridge {ι : Type*} [Fintype ι] (α β : ι → ℝ) (N : ℝ) (hN : (Fintype.card ι : ℝ) = N) (h0 : N ≠ 0) :
    Ideal.div (0 + ∑ j, ((α j : EReal) - Ideal.div (0 + ∑ k, (α k : EReal)) (N : EReal))
        * ((β j : EReal) - Ideal.div (0 + ∑ k, (β k : EReal)) (N : EReal))) (N : EReal)
      = Ideal.div (∑ j, (α j : EReal) * (β j : EReal)) (N : EReal)
        - Ideal.div (∑ k, (α k : EReal)) (N : EReal) * Ideal.div (∑ k, (β k : EReal)) (N : EReal) := by
  simp only [zero_add, Ideal.div_coe h0, ← coe_sum, ← EReal.coe_mul, ← EReal.coe_sub]
  rw [EReal.coe_eq_coe_iff]
  exact cov_real α β N hN h0

/-- The row length: the pattern 0x47800000 has sign 0, exponent 143 and significand 0, so it denotes
    2^23 · 2^(143 − 127 − 23) = 2^16. -/
theorem T_eq : T = ((65536 : ℝ) : EReal) := by
  unfold T
  simp [Ideal.ofBits, Ideal.ieee, -EReal.coe_mul]; norm_num

/-- The mean with its sum started at 0 is the mean from the raw sum. -/
theorem meanR_eq (a : S512x65536.Idx → EReal) (r : Fin 512) : meanR a r = meanK a r := by
  unfold meanR meanK
  rw [zero_add]

/-- On real entries the average of the centred products is the covariance formed from the raw sums. -/
theorem covR_eq (a b : S512x65536.Idx → EReal) (ha : ∀ i, ∃ v : ℝ, a i = (v : EReal))
    (hb : ∀ i, ∃ v : ℝ, b i = (v : EReal)) (r : Fin 512) : covR a b r = covK a b r := by
  choose α hα using ha
  choose β hβ using hb
  unfold covR covK meanR meanK rsum rsum2
  simp only [hα, hβ, T_eq]
  exact cov_bridge (fun j : Fin 65536 => α (ix2 r j)) (fun j : Fin 65536 => β (ix2 r j)) 65536
    (by rw [Fintype.card_fin]; norm_num) (by norm_num)

/-- The two results agree on real inputs: the five arguments of the shared last stretch agree entry by entry. -/
theorem resultR_eq_resultK (x y : S512x65536.Idx → EReal) (hx : ∀ i, ∃ v : ℝ, x i = (v : EReal))
    (hy : ∀ i, ∃ v : ℝ, y i = (v : EReal)) : resultR x y = resultK x y := by
  have hm : ∀ a : S512x65536.Idx → EReal,
      (fun i : S512.Idx => meanR a (i 0)) = fun i => meanK a (i 0) :=
    fun a => funext fun i => meanR_eq a (i 0)
  have hc : ∀ a b : S512x65536.Idx → EReal, (∀ i, ∃ v : ℝ, a i = (v : EReal)) → (∀ i, ∃ v : ℝ, b i = (v : EReal)) →
      (fun i : S512.Idx => covR a b (i 0)) = fun i => covK a b (i 0) :=
    fun a b ha hb => funext fun i => covR_eq a b ha hb (i 0)
  unfold resultR resultK
  rw [hm x, hm y, hc x x hx hx, hc y y hy hy, hc x y hx hy]

end Cert.Stats

end
-- ==== Proof.Finite.lean ====
/-
  FINITENESS. The precondition says, for each of the two arrays, that every entry's absolute value is strictly below the
  value of the pattern 0x7F800000, all these comparisons and-ed together into one bit that is 1. At the ideal values that
  pattern is +∞ and |a| = max a (−a), so the precondition says |a| < ⊤ for every entry a of either array. Among the
  extended reals that leaves only the reals: |⊥| = |⊤| = ⊤.
-/
import proofs.«160888_j45646912422065_1_alg».proof.Pre_finite_inputs
import Idealize.ShloMosaic.Lib.ReduceAll
import Idealize.ShloMosaic.PureOps.Ideal
import Idealize.ShloMosaic.Lib.ValueIdx
import Mathlib.Data.EReal.Basic

noncomputable section

namespace Cert.Finite

open Idealize.ShloMosaic

/-- The f32 pattern 0x7F800000 (sign 0, exponent field all ones, significand field 0) denotes +∞. -/
theorem ofBits_inf : Ideal.ofBits .f32 0x7F800000#32 = (⊤ : EReal) := by
  have h1 : ((0x7F800000#32 : BitVec 32).extractLsb' 23 8).toNat = 2 ^ 8 - 1 := by decide
  have h2 : ((0x7F800000#32 : BitVec 32).extractLsb' 0 23).toNat = 0 := by decide
  have h3 : ((0x7F800000#32 : BitVec 32).extractLsb' (8 + 23) 1 == 1#1) = false := by decide
  show Ideal.ieee 8 23 (0x7F800000#32 : BitVec 32) = ⊤
  unfold Ideal.ieee
  dsimp only
  rw [if_pos h1, if_pos h2, h3]
  rfl

/-- The ordered "less than" that came out 1 compared a smaller with a larger extended real. -/
theorem lt_of_cmp_olt (a b : EReal) (h : Ideal.cmp .olt a b = 1#1) : a < b := by
  by_contra hn
  have e : Ideal.cmp .olt a b = 0#1 := by
    show BitVec.ofBool (decide (a < b)) = 0#1
    rw [decide_eq_false hn]
    rfl
  rw [e] at h
  exact absurd h (by decide)

/-- An extended real whose absolute value max a (−a) is strictly below ⊤ is a real. -/
theorem real_of_abs_lt_top (a : EReal) (h : max a (-a) < ⊤) : ∃ v : ℝ, a = (v : EReal) := by
  induction a using EReal.rec with
  | bot => exact absurd h (by simp)
  | coe r => exact ⟨r, rfl⟩
  | top => exact absurd h (by simp)

/-- One entry: the comparison of |a| with the +∞ pattern came out 1, so a is a real. -/
theorem real_of_entry (a : EReal)
    (h : Ideal.cmp .olt (max a (-a)) (Ideal.ofBits .f32 0x7F800000#32) = 1#1) : ∃ v : ℝ, a = (v : EReal) := by
  rw [ofBits_inf] at h
  exact real_of_abs_lt_top a (lt_of_cmp_olt _ _ h)

/-- The result shape of the two and-reductions has exactly one index. -/
instance : Subsingleton Cert.Pre_finite_inputs.S_.Idx := ⟨fun _ _ => funext fun d => d.elim0⟩

/-- From the precondition: every entry of both arrays is a real number. -/
theorem real_of_pre [Cert.Pre_finite_inputs.Facts] (x y : FVec Ideal Cert.Pre_finite_inputs.S512x65536 .f32)
    (h : Cert.Pre_finite_inputs.fn (F := Ideal) x y = (fun _ => 1#1)) :
    (∀ i, ∃ v : ℝ, x i = (v : EReal)) ∧ (∀ i, ∃ v : ℝ, y i = (v : EReal)) := by
  have h0 := congrFun h ValueIdx.ix0
  dsimp only [Cert.Pre_finite_inputs.fn] at h0
  obtain ⟨hx, hy⟩ := IntOp.andi_eq_one.1 h0
  refine ⟨fun i => real_of_entry (x i) ?_, fun i => real_of_entry (y i) ?_⟩
  · exact Host.reduce_andi_all _ _ _ _ _ hx i
  · exact Host.reduce_andi_all _ _ _ _ _ hy i

end Cert.Finite

end
-- ==== Proof.RefValue.lean ====
/-
  The reference program's value: its run ends with the result at the statistics formed from the centred rows.

  The reference takes each row's mean (the row sum, started at 0, over T = 65536), subtracts it from every entry of the
  row, and averages the products of the centred entries: for a row r,
      mean_x(r) = (0 + Σ_j x(r,j)) / T,      cov(x,y)(r) = (0 + Σ_j (x(r,j) − mean_x(r)) · (y(r,j) − mean_y(r))) / T,
  the variances being cov(x,x) and cov(y,y).  Read index by index, the stages that produce the two means, the two
  variances and the covariance are exactly these row statistics; the thirteen operations after them are the shared last
  stretch, which is never opened here: both sides are that stretch applied to five row vectors, and the five vectors agree.
-/
import proofs.«160888_j45646912422065_1_alg».proof.Defs
import proofs.«160888_j45646912422065_1_alg».proof.Proof.Gen.ReferenceIdeal.Run
import proofs.«160888_j45646912422065_1_alg».proof.Proof.Gen.ReferenceIdeal.Read
import proofs.«160888_j45646912422065_1_alg».proof.Proof.Stats
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-! ## The entry a row sum reads

Each of the five row sums reads, for the row `i 0` and the summation index `k`, the entry (i 0, k). -/

theorem idx_v0 (i : S512.Idx) (k : Fin 65536) : idx_main_v0 i k = ix2 (n0 := 512) (n1 := 65536) (i 0) k :=
  funext fun a => Fin.ext (by match a with | ⟨0, _⟩ => rfl | ⟨1, _⟩ => rfl)
theorem idx_v3 (i : S512.Idx) (k : Fin 65536) : idx_main_v3 i k = ix2 (n0 := 512) (n1 := 65536) (i 0) k :=
  funext fun a => Fin.ext (by match a with | ⟨0, _⟩ => rfl | ⟨1, _⟩ => rfl)
theorem idx_v13 (i : S512.Idx) (k : Fin 65536) : idx_main_v13 i k = ix2 (n0 := 512) (n1 := 65536) (i 0) k :=
  funext fun a => Fin.ext (by match a with | ⟨0, _⟩ => rfl | ⟨1, _⟩ => rfl)
theorem idx_v17 (i : S512.Idx) (k : Fin 65536) : idx_main_v17 i k = ix2 (n0 := 512) (n1 := 65536) (i 0) k :=
  funext fun a => Fin.ext (by match a with | ⟨0, _⟩ => rfl | ⟨1, _⟩ => rfl)
theorem idx_v21 (i : S512.Idx) (k : Fin 65536) : idx_main_v21 i k = ix2 (n0 := 512) (n1 := 65536) (i 0) k :=
  funext fun a => Fin.ext (by match a with | ⟨0, _⟩ => rfl | ⟨1, _⟩ => rfl)

/-! ## The two means

A row's sum, started at the zero word, divided by the broadcast row length. -/

/-- The first argument's row means: (0 + Σ_j x(r,j)) / T. -/
theorem mean_x (x : FVec Ideal S512x65536 .f32) :
    val_main_v2 (F := Ideal) x = fun i => Cert.Stats.meanR x (i 0) := by
  funext i
  rw [val_main_v2_apply, val_main_v0_apply, val_main_v1_apply, val_main_cst_apply, val_main_cst_0_apply]
  simp only [Ideal.hostDivf_def, Ideal.ofBits_def, Ideal.ofBits_zero_f32, idx_v0]
  rfl

/-- The second argument's row means. -/
theorem mean_y (y : FVec Ideal S512x65536 .f32) :
    val_main_v5 (F := Ideal) y = fun i => Cert.Stats.meanR y (i 0) := by
  funext i
  rw [val_main_v5_apply, val_main_v3_apply, val_main_v4_apply, val_main_cst_1_apply, val_main_cst_2_apply]
  simp only [Ideal.hostDivf_def, Ideal.ofBits_def, Ideal.ofBits_zero_f32, idx_v3]
  rfl

/-! ## The centred rows

The mean, laid out as a column and then along the row, is subtracted entry by entry: the entry (r, j) of the centred
array is x(r,j) − mean_x(r). -/

theorem centred_x (x : FVec Ideal S512x65536 .f32) (j : S512x65536.Idx) :
    val_main_v8 (F := Ideal) x j = x j - Cert.Stats.meanR x (j 0) := by
  rw [val_main_v8_apply, val_main_v7_apply, val_main_v6_apply, mean_x]
  rfl

theorem centred_y (y : FVec Ideal S512x65536 .f32) (j : S512x65536.Idx) :
    val_main_v11 (F := Ideal) y j = y j - Cert.Stats.meanR y (j 0) := by
  rw [val_main_v11_apply, val_main_v10_apply, val_main_v9_apply, mean_y]
  rfl

/-! ## The two variances and the covariance

The centred products summed along the row from 0, over the row length. -/

/-- The first argument's row variances: the covariance of the row with itself. -/
theorem var_x (x : FVec Ideal S512x65536 .f32) :
    val_main_v15 (F := Ideal) x = fun i => Cert.Stats.covR x x (i 0) := by
  funext i
  rw [val_main_v15_apply, val_main_v13_apply, val_main_v14_apply, val_main_cst_3_apply, val_main_cst_4_apply]
  simp only [val_main_v12_apply, centred_x, Ideal.hostDivf_def, Ideal.mulf_def, Ideal.ofBits_def, Ideal.ofBits_zero_f32,
    idx_v13]
  rfl

/-- The second argument's row variances. -/
theorem var_y (y : FVec Ideal S512x65536 .f32) :
    val_main_v19 (F := Ideal) y = fun i => Cert.Stats.covR y y (i 0) := by
  funext i
  rw [val_main_v19_apply, val_main_v17_apply, val_main_v18_apply, val_main_cst_5_apply, val_main_cst_6_apply]
  simp only [val_main_v16_apply, centred_y, Ideal.hostDivf_def, Ideal.mulf_def, Ideal.ofBits_def, Ideal.ofBits_zero_f32,
    idx_v17]
  rfl

/-- The row covariances of the two arguments. -/
theorem cov_xy (x y : FVec Ideal S512x65536 .f32) :
    val_main_v23 (F := Ideal) x y = fun i => Cert.Stats.covR x y (i 0) := by
  funext i
  rw [val_main_v23_apply, val_main_v21_apply, val_main_v22_apply, val_main_cst_7_apply, val_main_cst_8_apply]
  simp only [val_main_v20_apply, centred_x, centred_y, Ideal.hostDivf_def, Ideal.mulf_def, Ideal.ofBits_def,
    Ideal.ofBits_zero_f32, idx_v21]
  rfl

/-! ## The result

The last stage is the shared last stretch applied to the five row vectors above. -/

/-- The program's last stage is the shared stretch of the means, variances and covariance it has formed (the stretch
    is spelt operation for operation as the program's last thirteen operations, so this holds by unfolding names). -/
theorem last_stage (x y : FVec Ideal S512x65536 .f32) :
    val_main_v36 (F := Ideal) x y
      = Cert.Stats.tailV (val_main_v2 (F := Ideal) x) (val_main_v5 (F := Ideal) y) (val_main_v15 (F := Ideal) x)
          (val_main_v19 (F := Ideal) y) (val_main_v23 (F := Ideal) x y) := rfl

/-- The reference's result, as a function of its two arguments, is the result from the centred rows. -/
theorem result_eq (x y : FVec Ideal S512x65536 .f32) :
    val_main_v36 (F := Ideal) x y = Cert.Stats.resultR x y := by
  rw [last_stage, mean_x, mean_y, var_x, var_y, cov_xy]
  rfl

/-- Every execution of the reference ends with its result buffer at the result from the centred rows of the two
    arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36)
          = Cert.Stats.resultR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run Cert.ReferenceIdeal.defs _ _).mono
    (fun _ h c => ⟨(h c).1.trans ((val_main_v36_eq _ _).trans (result_eq _ _)), (h c).2⟩)
    (Cert.ReferenceIdeal.Value.run (F := Ideal) m ρ)

end Cert.ReferenceIdeal.RefValue

end
-- ==== Proof.Pieces.lean ====
/-
  What one grid step leaves behind, as plain functions of what it read.

  A step at column block k of row block b reads the two 256 × 4096 blocks x, y and the five 256 × 1 running sums.
  Each running sum is replaced by itself plus a lane sum over the block's 4096 columns: of x, of y, of x·x, of y·y,
  of x·y.  At k = 0 the running sums are first reset to zero, so the step leaves 0 + (lane sum).  At k = 15 the five
  updated running sums are laid side by side into the 256 × 5 output block.
-/
import proofs.«160888_j45646912422065_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a2 : Memref sig .tc .vmem S256x4096 .f32) (h2 : a2.IsWhole) (a3 : Memref sig .tc .vmem S256x4096 .f32) (h3 : a3.IsWhole)
  (a4 : Memref sig .tc .vmem S256x5 .f32) (h4 : a4.IsWhole)
  (a5 : Memref sig .tc .vmem S256x1 .f32) (h5 : a5.IsWhole) (a6 : Memref sig .tc .vmem S256x1 .f32) (h6 : a6.IsWhole)
  (a7 : Memref sig .tc .vmem S256x1 .f32) (h7 : a7.IsWhole) (a8 : Memref sig .tc .vmem S256x1 .f32) (h8 : a8.IsWhole)
  (a9 : Memref sig .tc .vmem S256x1 .f32) (h9 : a9.IsWhole)
  (x0 x1 : Vec F S256x4096 .f32) (xs0 xs1 xs2 xs3 xs4 : Vec F S256x1 .f32)

/-! ### The first step of a row block (k = 0): the reset value 0, then plus the lane sum -/

theorem sA0 (hc0 : cond0_0 i) (hc1 : ¬cond0_1 i) :
    sout0_A_0 c i a2 h2 a3 h3 a4 h4 a5 h5 a6 h6 a7 h7 a8 h8 a9 h9 hc0 hc1 x0 x1 = k0_pay9 x0 k0_pay4 := by
  unfold sout0_A_0
  rw [View.read_writes_eq_canon _ _ _ (scover0_A_0 c i a2 h2 a3 h3 a4 h4 a5 h5 a6 h6 a7 h7 a8 h8 a9 h9 hc0 hc1 x0 x1)]
  unfold kernelRun0_A
  dsimp only
  sl_unfold_words
  rw [View.canon_cons_unit_zero (S := S256x1) hz, View.readCov_unit_zero (S := S256x1) _ hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sA1 (hc0 : cond0_0 i) (hc1 : ¬cond0_1 i) :
    sout0_A_1 c i a2 h2 a3 h3 a4 h4 a5 h5 a6 h6 a7 h7 a8 h8 a9 h9 hc0 hc1 x0 x1 = k0_pay10 x1 k0_pay5 := by
  unfold sout0_A_1
  rw [View.read_writes_eq_canon _ _ _ (scover0_A_1 c i a2 h2 a3 h3 a4 h4 a5 h5 a6 h6 a7 h7 a8 h8 a9 h9 hc0 hc1 x0 x1)]
  unfold kernelRun0_A
  dsimp only
  sl_unfold_words
  rw [View.canon_cons_unit_zero (S := S256x1) hz, View.readCov_unit_zero (S := S256x1) _ hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sA2 (hc0 : cond0_0 i) (hc1 : ¬cond0_1 i) :
    sout0_A_2 c i a2 h2 a3 h3 a4 h4 a5 h5 a6 h6 a7 h7 a8 h8 a9 h9 hc0 hc1 x0 x1 = k0_pay11 x0 k0_pay6 := by
  unfold sout0_A_2
  rw [View.read_writes_eq_canon _ _ _ (scover0_A_2 c i a2 h2 a3 h3 a4 h4 a5 h5 a6 h6 a7 h7 a8 h8 a9 h9 hc0 hc1 x0 x1)]
  unfold kernelRun0_A
  dsimp only
  sl_unfold_words
  rw [View.canon_cons_unit_zero (S := S256x1) hz, View.readCov_unit_zero (S := S256x1) _ hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sA3 (hc0 : cond0_0 i) (hc1 : ¬cond0_1 i) :
    sout0_A_3 c i a2 h2 a3 h3 a4 h4 a5 h5 a6 h6 a7 h7 a8 h8 a9 h9 hc0 hc1 x0 x1 = k0_pay1 k0_pay7 (k0_pay12 x1) := by
  unfold sout0_A_3
  rw [View.read_writes_eq_canon _ _ _ (scover0_A_3 c i a2 h2 a3 h3 a4 h4 a5 h5 a6 h6 a7 h7 a8 h8 a9 h9 hc0 hc1 x0 x1)]
  unfold kernelRun0_A
  dsimp only
  sl_unfold_words
  rw [View.canon_cons_unit_zero (S := S256x1) hz, View.readCov_unit_zero (S := S256x1) _ hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sA4 (hc0 : cond0_0 i) (hc1 : ¬cond0_1 i) :
    sout0_A_4 c i a2 h2 a3 h3 a4 h4 a5 h5 a6 h6 a7 h7 a8 h8 a9 h9 hc0 hc1 x0 x1 = k0_pay2 x0 x1 k0_pay8 := by
  unfold sout0_A_4
  rw [View.read_writes_eq_canon _ _ _ (scover0_A_4 c i a2 h2 a3 h3 a4 h4 a5 h5 a6 h6 a7 h7 a8 h8 a9 h9 hc0 hc1 x0 x1)]
  unfold kernelRun0_A
  dsimp only
  sl_unfold_words
  rw [View.canon_cons_unit_zero (S := S256x1) hz, View.readCov_unit_zero (S := S256x1) _ hz]
  simp only [View.readAt_eq_ld, h2.read_unread, h3.read_unread, h5.read_unread, h6.read_unread, h7.read_unread, h8.read_unread, h9.read_unread, View.ld_unit_zero (S := S256x4096) hz, View.ld_unit_zero (S := S256x1) hz]

/-! ### A middle step (0 < k < 15): each running sum plus its lane sum -/

theorem sB0 (hc0 : ¬cond0_0 i) (hc1 : ¬cond0_1 i) :
    sout0_B_0 c i a2 h2 a3 h3 a4 h4 a5 h5 a6 h6 a7 h7 a8 h8 a9 h9 hc0 hc1 x0 x1 xs0 xs1 xs2 xs3 xs4 = k0_pay9 x0 xs0 := by
  unfold sout0_B_0
  rw [View.read_writes_eq_canon _ _ _ (scover0_B_0 c i a2 h2 a3 h3 a4 h4 a5 h5 a6 h6 a7 h7 a8 h8 a9 h9 hc0 hc1 x0 x1 xs0 xs1 xs2 xs3 xs4)]
  unfold kernelRun0_B
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sB1 (hc0 : ¬cond0_0 i) (hc1 : ¬cond0_1 i) :
    sout0_B_1 c i a2 h2 a3 h3 a4 h4 a5 h5 a6 h6 a7 h7 a8 h8 a9 h9 hc0 hc1 x0 x1 xs0 xs1 xs2 xs3 xs4 = k0_pay10 x1 xs1 := by
  unfold sout0_B_1
  rw [View.read_writes_eq_canon _ _ _ (scover0_B_1 c i a2 h2 a3 h3 a4 h4 a5 h5 a6 h6 a7 h7 a8 h8 a9 h9 hc0 hc1 x0 x1 xs0 xs1 xs2 xs3 xs4)]
  unfold kernelRun0_B
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sB2 (hc0 : ¬cond0_0 i) (hc1 : ¬cond0_1 i) :
    sout0_B_2 c i a2 h2 a3 h3 a4 h4 a5 h5 a6 h6 a7 h7 a8 h8 a9 h9 hc0 hc1 x0 x1 xs0 xs1 xs2 xs3 xs4 = k0_pay11 x0 xs2 := by
  unfold sout0_B_2
  rw [View.read_writes_eq_canon _ _ _ (scover0_B_2 c i a2 h2 a3 h3 a4 h4 a5 h5 a6 h6 a7 h7 a8 h8 a9 h9 hc0 hc1 x0 x1 xs0 xs1 xs2 xs3 xs4)]
  unfold kernelRun0_B
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sB3 (hc0 : ¬cond0_0 i) (hc1 : ¬cond0_1 i) :
    sout0_B_3 c i a2 h2 a3 h3 a4 h4 a5 h5 a6 h6 a7 h7 a8 h8 a9 h9 hc0 hc1 x0 x1 xs0 xs1 xs2 xs3 xs4 = k0_pay1 xs3 (k0_pay12 x1) := by
  unfold sout0_B_3
  rw [View.read_writes_eq_canon _ _ _ (scover0_B_3 c i a2 h2 a3 h3 a4 h4 a5 h5 a6 h6 a7 h7 a8 h8 a9 h9 hc0 hc1 x0 x1 xs0 xs1 xs2 xs3 xs4)]
  unfold kernelRun0_B
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sB4 (hc0 : ¬cond0_0 i) (hc1 : ¬cond0_1 i) :
    sout0_B_4 c i a2 h2 a3 h3 a4 h4 a5 h5 a6 h6 a7 h7 a8 h8 a9 h9 hc0 hc1 x0 x1 xs0 xs1 xs2 xs3 xs4 = k0_pay2 x0 x1 xs4 := by
  unfold sout0_B_4
  rw [View.read_writes_eq_canon _ _ _ (scover0_B_4 c i a2 h2 a3 h3 a4 h4 a5 h5 a6 h6 a7 h7 a8 h8 a9 h9 hc0 hc1 x0 x1 xs0 xs1 xs2 xs3 xs4)]
  unfold kernelRun0_B
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

/-! ### The last step of a row block (k = 15): the same updates, and the five updated sums side by side -/

theorem sC0 (hc0 : ¬cond0_0 i) (hc1 : cond0_1 i) :
    sout0_C_0 c i a2 h2 a3 h3 a4 h4 a5 h5 a6 h6 a7 h7 a8 h8 a9 h9 hc0 hc1 x0 x1 xs0 xs1 xs2 xs3 xs4 = k0_pay9 x0 xs0 := by
  unfold sout0_C_0
  rw [View.read_writes_eq_canon _ _ _ (scover0_C_0 c i a2 h2 a3 h3 a4 h4 a5 h5 a6 h6 a7 h7 a8 h8 a9 h9 hc0 hc1 x0 x1 xs0 xs1 xs2 xs3 xs4)]
  unfold kernelRun0_C
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sC1 (hc0 : ¬cond0_0 i) (hc1 : cond0_1 i) :
    sout0_C_1 c i a2 h2 a3 h3 a4 h4 a5 h5 a6 h6 a7 h7 a8 h8 a9 h9 hc0 hc1 x0 x1 xs0 xs1 xs2 xs3 xs4 = k0_pay10 x1 xs1 := by
  unfold sout0_C_1
  rw [View.read_writes_eq_canon _ _ _ (scover0_C_1 c i a2 h2 a3 h3 a4 h4 a5 h5 a6 h6 a7 h7 a8 h8 a9 h9 hc0 hc1 x0 x1 xs0 xs1 xs2 xs3 xs4)]
  unfold kernelRun0_C
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sC2 (hc0 : ¬cond0_0 i) (hc1 : cond0_1 i) :
    sout0_C_2 c i a2 h2 a3 h3 a4 h4 a5 h5 a6 h6 a7 h7 a8 h8 a9 h9 hc0 hc1 x0 x1 xs0 xs1 xs2 xs3 xs4 = k0_pay11 x0 xs2 := by
  unfold sout0_C_2
  rw [View.read_writes_eq_canon _ _ _ (scover0_C_2 c i a2 h2 a3 h3 a4 h4 a5 h5 a6 h6 a7 h7 a8 h8 a9 h9 hc0 hc1 x0 x1 xs0 xs1 xs2 xs3 xs4)]
  unfold kernelRun0_C
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sC3 (hc0 : ¬cond0_0 i) (hc1 : cond0_1 i) :
    sout0_C_3 c i a2 h2 a3 h3 a4 h4 a5 h5 a6 h6 a7 h7 a8 h8 a9 h9 hc0 hc1 x0 x1 xs0 xs1 xs2 xs3 xs4 = k0_pay1 xs3 (k0_pay12 x1) := by
  unfold sout0_C_3
  rw [View.read_writes_eq_canon _ _ _ (scover0_C_3 c i a2 h2 a3 h3 a4 h4 a5 h5 a6 h6 a7 h7 a8 h8 a9 h9 hc0 hc1 x0 x1 xs0 xs1 xs2 xs3 xs4)]
  unfold kernelRun0_C
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

theorem sC4 (hc0 : ¬cond0_0 i) (hc1 : cond0_1 i) :
    sout0_C_4 c i a2 h2 a3 h3 a4 h4 a5 h5 a6 h6 a7 h7 a8 h8 a9 h9 hc0 hc1 x0 x1 xs0 xs1 xs2 xs3 xs4 = k0_pay2 x0 x1 xs4 := by
  unfold sout0_C_4
  rw [View.read_writes_eq_canon _ _ _ (scover0_C_4 c i a2 h2 a3 h3 a4 h4 a5 h5 a6 h6 a7 h7 a8 h8 a9 h9 hc0 hc1 x0 x1 xs0 xs1 xs2 xs3 xs4)]
  unfold kernelRun0_C
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz]

theorem oC2 (hc0 : ¬cond0_0 i) (hc1 : cond0_1 i) :
    out0_C_2 c i a2 h2 a3 h3 a4 h4 a5 h5 a6 h6 a7 h7 a8 h8 a9 h9 hc0 hc1 x0 x1 xs0 xs1 xs2 xs3 xs4
      = k0_pay3 (k0_pay9 x0 xs0) (k0_pay10 x1 xs1) (k0_pay11 x0 xs2) (k0_pay1 xs3 (k0_pay12 x1)) (k0_pay2 x0 x1 xs4) := by
  unfold out0_C_2
  rw [View.read_writes_eq_canon _ _ _ (cover0_C_2 c i a2 h2 a3 h3 a4 h4 a5 h5 a6 h6 a7 h7 a8 h8 a9 h9 hc0 hc1 x0 x1 xs0 xs1 xs2 xs3 xs4)]
  unfold kernelRun0_C
  dsimp only
  sl_unfold_words
  rw [View.canon_unit_zero hz]
  simp only [View.readAt_eq_ld, h2.read_unread, h3.read_unread, h5.read_unread, h6.read_unread, h7.read_unread, h8.read_unread, h9.read_unread, View.ld_unit_zero (S := S256x4096) hz, View.ld_unit_zero (S := S256x1) hz, View.readCov_unit_zero (S := S256x1) _ hz]

end Cert.KernelIdeal.Pieces

end
-- ==== Proof.Payloads.lean ====
/-
  The values the kernel stores, read at one index, at the ideal values.

  Each running row statistic is the old column entry plus a sum over the 4096 lanes of the block row: of the
  block's entries, of their squares, or of the products of the two blocks' entries.  A reshape of a 256-vector
  to a 256 × 1 column reads the vector at the row; a reshape to the same shape reads the same entry; the zero
  pattern broadcast is 0; and the five columns laid side by side are read back column by column.
-/
import proofs.«160888_j45646912422065_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payloads

open Idealize.ShloMosaic Idealize.ShloMosaic.ValueIdx Cert.KernelIdeal Cert.KernelIdeal.Gen
open scoped BigOperators

/-- A lane sum reshaped to a column, read at (p, q): the reshape reads the 256-vector at row p (the two row-major
    positions are p and p·1 + q with q = 0), and the reduction over the lane axis at p is the sum over the lanes
    of row p. -/
theorem rowsum_apply (src : FVec Ideal S256x4096 .f32) (p : Fin 256) (q : Fin 1) :
    shapeCast S256x1 (multiReduction (F := Ideal) .add [1] S256 src 0x00000000#32 reduces_S256x4096_S256 (.inl rfl) rfl)
        shapeCasts_S256_S256x1 (ix2 p q)
      = ∑ k : Fin 4096, src (ix2 p k) := by
  refine (shapeCast_apply _ shapeCasts_S256_S256x1 (ix2 p q) (ix1 p) ?_).trans ?_
  · rw [Shape.rowMajor_val_one, Shape.rowMajor_val_two]
    have hq := q.isLt
    show p.val = p.val * 1 + q.val
    omega
  · refine (Ideal.multiReduction_add_single src 0x00000000#32 reduces_S256x4096_S256 (.inl rfl) rfl (ix1 p)).trans ?_
    refine Finset.sum_congr rfl fun k _ => congrArg src ?_
    funext a
    match a with
    | ⟨0, _⟩ => rfl
    | ⟨1, _⟩ => rfl

/-- The running sum of the first block's rows: the old entry plus the row's lane sum. -/
theorem pay9_apply (v3 : Vec Ideal S256x4096 .f32) (v5 : Vec Ideal S256x1 .f32) (p : Fin 256) (q : Fin 1) :
    k0_pay9 (F := Ideal) v3 v5 (ix2 p q) = v5 (ix2 p q) + ∑ k : Fin 4096, v3 (ix2 p k) := by
  unfold k0_pay9
  refine (congrFun (shapeCast_self _ _) (ix2 p q)).trans ?_
  exact congrArg (v5 (ix2 p q) + ·) (rowsum_apply v3 p q)

/-- The running sum of the second block's rows. -/
theorem pay10_apply (v4 : Vec Ideal S256x4096 .f32) (v12 : Vec Ideal S256x1 .f32) (p : Fin 256) (q : Fin 1) :
    k0_pay10 (F := Ideal) v4 v12 (ix2 p q) = v12 (ix2 p q) + ∑ k : Fin 4096, v4 (ix2 p k) := by
  unfold k0_pay10
  refine (congrFun (shapeCast_self _ _) (ix2 p q)).trans ?_
  exact congrArg (v12 (ix2 p q) + ·) (rowsum_apply v4 p q)

/-- The running sum of squares of the first block's rows. -/
theorem pay11_apply (v3 : Vec Ideal S256x4096 .f32) (v19 : Vec Ideal S256x1 .f32) (p : Fin 256) (q : Fin 1) :
    k0_pay11 (F := Ideal) v3 v19 (ix2 p q) = v19 (ix2 p q) + ∑ k : Fin 4096, v3 (ix2 p k) * v3 (ix2 p k) := by
  unfold k0_pay11
  refine (congrFun (shapeCast_self _ _) (ix2 p q)).trans ?_
  exact congrArg (v19 (ix2 p q) + ·) (rowsum_apply (mulf v3 v3) p q)

/-- The running sum of squares of the second block's rows (the lane sum is formed first, then added in). -/
theorem pay1_12_apply (v27 : Vec Ideal S256x1 .f32) (v4 : Vec Ideal S256x4096 .f32) (p : Fin 256) (q : Fin 1) :
    k0_pay1 (F := Ideal) v27 (k0_pay12 v4) (ix2 p q) = v27 (ix2 p q) + ∑ k : Fin 4096, v4 (ix2 p k) * v4 (ix2 p k) := by
  unfold k0_pay1 k0_pay12
  refine (congrFun (shapeCast_self _ _) (ix2 p q)).trans ?_
  exact congrArg (v27 (ix2 p q) + ·) (rowsum_apply (mulf v4 v4) p q)

/-- The running sum of products of the two blocks' rows. -/
theorem pay2_apply (v3 v4 : Vec Ideal S256x4096 .f32) (v35 : Vec Ideal S256x1 .f32) (p : Fin 256) (q : Fin 1) :
    k0_pay2 (F := Ideal) v3 v4 v35 (ix2 p q) = v35 (ix2 p q) + ∑ k : Fin 4096, v3 (ix2 p k) * v4 (ix2 p k) := by
  unfold k0_pay2
  refine (congrFun (shapeCast_self _ _) (ix2 p q)).trans ?_
  exact congrArg (v35 (ix2 p q) + ·) (rowsum_apply (mulf v3 v4) p q)

/-- The zero column: the broadcast of the pattern of +0.0 is 0 at every index. -/
theorem pay4_apply (p : Fin 256) (q : Fin 1) : k0_pay4 (F := Ideal) (ix2 p q) = 0 := by
  unfold k0_pay4
  refine (congrFun (shapeCast_self _ _) (ix2 p q)).trans ?_
  exact Ideal.ofBits_zero_f32

theorem pay5_apply (p : Fin 256) (q : Fin 1) : k0_pay5 (F := Ideal) (ix2 p q) = 0 := by
  unfold k0_pay5
  refine (congrFun (shapeCast_self _ _) (ix2 p q)).trans ?_
  exact Ideal.ofBits_zero_f32

theorem pay6_apply (p : Fin 256) (q : Fin 1) : k0_pay6 (F := Ideal) (ix2 p q) = 0 := by
  unfold k0_pay6
  refine (congrFun (shapeCast_self _ _) (ix2 p q)).trans ?_
  exact Ideal.ofBits_zero_f32

theorem pay7_apply (p : Fin 256) (q : Fin 1) : k0_pay7 (F := Ideal) (ix2 p q) = 0 := by
  unfold k0_pay7
  refine (congrFun (shapeCast_self _ _) (ix2 p q)).trans ?_
  exact Ideal.ofBits_zero_f32

theorem pay8_apply (p : Fin 256) (q : Fin 1) : k0_pay8 (F := Ideal) (ix2 p q) = 0 := by
  unfold k0_pay8
  refine (congrFun (shapeCast_self _ _) (ix2 p q)).trans ?_
  exact Ideal.ofBits_zero_f32

/-- The five columns side by side, read at column c: piece c (the c unit columns before it fill lanes 0 … c − 1)
    at its one lane. -/
theorem pay3_apply0 (v46 v47 v48 v49 v50 : Vec Ideal S256x1 .f32) (p : Fin 256) :
    k0_pay3 (F := Ideal) v46 v47 v48 v49 v50 (ix2 p (0 : Fin 5)) = v46 (ix2 p 0) := by
  unfold k0_pay3
  refine concatenate_apply_piece 1 _ _ (ix2 p (0 : Fin 5)) 0 (by show (0 : Nat) < 5; omega) S256x1 v46 rfl rfl 0 rfl (ix2 p 0) ?_ rfl
  intro b hb
  match b, hb with
  | ⟨0, _⟩, _ => rfl
  | ⟨1, _⟩, hb => exact absurd rfl hb

theorem pay3_apply1 (v46 v47 v48 v49 v50 : Vec Ideal S256x1 .f32) (p : Fin 256) :
    k0_pay3 (F := Ideal) v46 v47 v48 v49 v50 (ix2 p (1 : Fin 5)) = v47 (ix2 p 0) := by
  unfold k0_pay3
  refine concatenate_apply_piece 1 _ _ (ix2 p (1 : Fin 5)) 1 (by show (1 : Nat) < 5; omega) S256x1 v47 rfl rfl 1 rfl (ix2 p 0) ?_ rfl
  intro b hb
  match b, hb with
  | ⟨0, _⟩, _ => rfl
  | ⟨1, _⟩, hb => exact absurd rfl hb

theorem pay3_apply2 (v46 v47 v48 v49 v50 : Vec Ideal S256x1 .f32) (p : Fin 256) :
    k0_pay3 (F := Ideal) v46 v47 v48 v49 v50 (ix2 p (2 : Fin 5)) = v48 (ix2 p 0) := by
  unfold k0_pay3
  refine concatenate_apply_piece 1 _ _ (ix2 p (2 : Fin 5)) 2 (by show (2 : Nat) < 5; omega) S256x1 v48 rfl rfl 2 rfl (ix2 p 0) ?_ rfl
  intro b hb
  match b, hb with
  | ⟨0, _⟩, _ => rfl
  | ⟨1, _⟩, hb => exact absurd rfl hb

theorem pay3_apply3 (v46 v47 v48 v49 v50 : Vec Ideal S256x1 .f32) (p : Fin 256) :
    k0_pay3 (F := Ideal) v46 v47 v48 v49 v50 (ix2 p (3 : Fin 5)) = v49 (ix2 p 0) := by
  unfold k0_pay3
  refine concatenate_apply_piece 1 _ _ (ix2 p (3 : Fin 5)) 3 (by show (3 : Nat) < 5; omega) S256x1 v49 rfl rfl 3 rfl (ix2 p 0) ?_ rfl
  intro b hb
  match b, hb with
  | ⟨0, _⟩, _ => rfl
  | ⟨1, _⟩, hb => exact absurd rfl hb

theorem pay3_apply4 (v46 v47 v48 v49 v50 : Vec Ideal S256x1 .f32) (p : Fin 256) :
    k0_pay3 (F := Ideal) v46 v47 v48 v49 v50 (ix2 p (4 : Fin 5)) = v50 (ix2 p 0) := by
  unfold k0_pay3
  refine concatenate_apply_piece 1 _ _ (ix2 p (4 : Fin 5)) 4 (by show (4 : Nat) < 5; omega) S256x1 v50 rfl rfl 4 rfl (ix2 p 0) ?_ rfl
  intro b hb
  match b, hb with
  | ⟨0, _⟩, _ => rfl
  | ⟨1, _⟩, hb => exact absurd rfl hb

end Cert.KernelIdeal.Payloads

end
-- ==== Proof.StatsG.lean ====
/-
  The 512 × 5 array of raw row sums: column 0 the sums of x, column 1 of y, column 2 of x·x, column 3 of y·y,
  column 4 of x·y.
-/
import proofs.«160888_j45646912422065_1_alg».proof.Proof.Stats

noncomputable section

namespace Cert.Stats

open Idealize.ShloMosaic Idealize.ShloMosaic.ValueIdx

/-- The five raw sums of every row, side by side. -/
def statsG (x y : S512x65536.Idx → EReal) : S512x5.Idx → EReal := fun i =>
  if (i 1).val = 0 then rsum x (i 0)
  else if (i 1).val = 1 then rsum y (i 0)
  else if (i 1).val = 2 then rsum2 x x (i 0)
  else if (i 1).val = 3 then rsum2 y y (i 0)
  else rsum2 x y (i 0)

end Cert.Stats

end
-- ==== Proof.KernelStats.lean ====
/-
  The statistics array the kernel leaves: row r of the 512 × 5 result holds the five raw sums of row r.

  The grid has 2 × 16 points; point t = 16·b + k works on rows 256·b … 256·b + 255 and columns 4096·k … 4096·k + 4095.
  Write P(f, R, n) = Σ_{j < n} f(R, j) for the partial sum of row R.  After point t each of the five running sums
  holds, at local row p, the partial sum P(f, 256·b + p, 4096·(k + 1)) of its summand f (x, y, x·x, y·y, x·y):
  at k = 0 it is 0 plus the first block's lane sum, and each later point adds the next block's lane sum, which is
  P's step  P(f, R, 4096·(k+1)) = P(f, R, 4096·k) + Σ_{j < 4096} f(R, 4096·k + j).  At k = 15 the partial sums are the
  whole row sums, and the block written back is rows 256·b … of the array of raw sums; the two row blocks cover it.
-/
import proofs.«160888_j45646912422065_1_alg».proof.Proof.Pieces
import proofs.«160888_j45646912422065_1_alg».proof.Proof.Payloads
import proofs.«160888_j45646912422065_1_alg».proof.Proof.StatsG
import Idealize.ShloMosaic.Lib.Pipeline.Value
import Idealize.ShloMosaic.Lib.ValueIdx
import Mathlib.Algebra.BigOperators.Group.Finset.Basic
import Mathlib.Data.Fintype.BigOperators

set_option maxRecDepth 16384

noncomputable section

namespace Cert.KernelIdeal.StatsValue

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ### Partial row sums over the naturals -/

/-- Entry (R, j) of a 512 × 65536 array, 0 outside it. -/
def ext (a : S512x65536.Idx → EReal) (R j : ℕ) : EReal :=
  if h : R < 512 ∧ j < 65536 then a (ix2 ⟨R, h.1⟩ ⟨j, h.2⟩) else 0

/-- The sum of the first n entries of row R. -/
def psum (f : ℕ → ℕ → EReal) (R n : ℕ) : EReal := ∑ j ∈ Finset.range n, f R j

theorem psum_zero (f : ℕ → ℕ → EReal) (R : ℕ) : psum f R (4096 * 0) = 0 := by
  unfold psum; rw [Nat.mul_zero, Finset.sum_range_zero]

/-- One more block of 4096 columns. -/
theorem psum_step (f : ℕ → ℕ → EReal) (R k : ℕ) :
    psum f R (4096 * (k + 1)) = psum f R (4096 * k) + ∑ j : Fin 4096, f R (4096 * k + j.val) := by
  unfold psum
  rw [show 4096 * (k + 1) = 4096 * k + 4096 from by ring, Finset.sum_range_add,
    Fin.sum_univ_eq_sum_range (fun j => f R (4096 * k + j)) 4096]

/-! ### The blocks a point reads -/

variable (m : (ℓ : Loc nD τ sig) → Buf (Elt Ideal) ℓ)

/-- The two argument arrays as the region finds them, and a point's blocks of them. -/
abbrev xarr (c : Dev nD) : S512x65536.Idx → EReal := V m c main_arg0
abbrev yarr (c : Dev nD) : S512x65536.Idx → EReal := V m c main_arg1
abbrev xblk (c : Dev nD) (t : Fin cfg0.N) : Vec Ideal S256x4096 .f32 := iblk m c 0 t
abbrev yblk (c : Dev nD) (t : Fin cfg0.N) : Vec Ideal S256x4096 .f32 := iblk m c 1 t

/-- The printed index maps over the grid: point t is row block t / 16, column block t % 16; the output's block is the row block. -/
theorem idx_facts : ∀ t : Fin cfg0.N, win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val / 16 ∧ win0_2.index t (1 : Fin 2) = 0 :=
  (by decide +kernel : ∀ t : Fin grid0.N, _)

theorem xblk_apply (c : Dev nD) (t : Fin cfg0.N) (p : Fin 256) (q : Fin 4096) :
    xblk m c t (ix2 p q) = ext (xarr m c) (256 * (t.val / 16) + p.val) (4096 * (t.val % 16) + q.val) := by
  have hN : t.val < 32 := lt_of_lt_of_eq t.isLt N_0
  have hp := p.isLt
  have hq := q.isLt
  obtain ⟨e0, e1, -⟩ := idx_facts t
  unfold ext
  rw [dif_pos ⟨by omega, by omega⟩]
  show V m c main_arg0 (((cfg0.win 0).blk t).view.emb (ix2 p q)) = V m c main_arg0 _
  refine congrArg (V m c main_arg0) (funext fun a => Fin.ext ?_)
  match a with
  | ⟨0, _⟩ => show win0_0.index t (0 : Fin 2) * 256 + 1 * p.val = 256 * (t.val / 16) + p.val; omega
  | ⟨1, _⟩ => show win0_0.index t (1 : Fin 2) * 4096 + 1 * q.val = 4096 * (t.val % 16) + q.val; omega

theorem yblk_apply (c : Dev nD) (t : Fin cfg0.N) (p : Fin 256) (q : Fin 4096) :
    yblk m c t (ix2 p q) = ext (yarr m c) (256 * (t.val / 16) + p.val) (4096 * (t.val % 16) + q.val) := by
  have hN : t.val < 32 := lt_of_lt_of_eq t.isLt N_0
  have hp := p.isLt
  have hq := q.isLt
  obtain ⟨-, -, e0, e1, -⟩ := idx_facts t
  unfold ext
  rw [dif_pos ⟨by omega, by omega⟩]
  show V m c main_arg1 (((cfg0.win 1).blk t).view.emb (ix2 p q)) = V m c main_arg1 _
  refine congrArg (V m c main_arg1) (funext fun a => Fin.ext ?_)
  match a with
  | ⟨0, _⟩ => show win0_1.index t (0 : Fin 2) * 256 + 1 * p.val = 256 * (t.val / 16) + p.val; omega
  | ⟨1, _⟩ => show win0_1.index t (1 : Fin 2) * 4096 + 1 * q.val = 4096 * (t.val % 16) + q.val; omega

/-! ### What the running sums hold after each point -/

/-- After point n = 16·b + k the five running sums hold, at local row p, the partial sums of row 256·b + p over the
    first 4096·(k + 1) columns. -/
def Inv (c : Dev nD) (n : ℕ) (hn : n < cfg0.N) : Prop :=
  ∀ (p : Fin 256) (q : Fin 1),
    (outsAt0 m c n hn).2.1 (ix2 p q) = psum (ext (xarr m c)) (256 * (n / 16) + p.val) (4096 * (n % 16 + 1))
    ∧ (outsAt0 m c n hn).2.2.1 (ix2 p q) = psum (ext (yarr m c)) (256 * (n / 16) + p.val) (4096 * (n % 16 + 1))
    ∧ (outsAt0 m c n hn).2.2.2.1 (ix2 p q)
        = psum (fun R j => ext (xarr m c) R j * ext (xarr m c) R j) (256 * (n / 16) + p.val) (4096 * (n % 16 + 1))
    ∧ (outsAt0 m c n hn).2.2.2.2.1 (ix2 p q)
        = psum (fun R j => ext (yarr m c) R j * ext (yarr m c) R j) (256 * (n / 16) + p.val) (4096 * (n % 16 + 1))
    ∧ (outsAt0 m c n hn).2.2.2.2.2 (ix2 p q)
        = psum (fun R j => ext (xarr m c) R j * ext (yarr m c) R j) (256 * (n / 16) + p.val) (4096 * (n % 16 + 1))

/-- A lane sum of a point's block of x is the next 4096 terms of the row's partial sum. -/
theorem lane_x (c : Dev nD) (t : Fin cfg0.N) (p : Fin 256) :
    ∑ k : Fin 4096, xblk m c t (ix2 p k)
      = ∑ j : Fin 4096, ext (xarr m c) (256 * (t.val / 16) + p.val) (4096 * (t.val % 16) + j.val) :=
  Finset.sum_congr rfl fun k _ => xblk_apply m c t p k

theorem lane_y (c : Dev nD) (t : Fin cfg0.N) (p : Fin 256) :
    ∑ k : Fin 4096, yblk m c t (ix2 p k)
      = ∑ j : Fin 4096, ext (yarr m c) (256 * (t.val / 16) + p.val) (4096 * (t.val % 16) + j.val) :=
  Finset.sum_congr rfl fun k _ => yblk_apply m c t p k

theorem lane_xx (c : Dev nD) (t : Fin cfg0.N) (p : Fin 256) :
    ∑ k : Fin 4096, xblk m c t (ix2 p k) * xblk m c t (ix2 p k)
      = ∑ j : Fin 4096, (fun R j => ext (xarr m c) R j * ext (xarr m c) R j) (256 * (t.val / 16) + p.val) (4096 * (t.val % 16) + j.val) :=
  Finset.sum_congr rfl fun k _ => by rw [xblk_apply m c t p k]

theorem lane_yy (c : Dev nD) (t : Fin cfg0.N) (p : Fin 256) :
    ∑ k : Fin 4096, yblk m c t (ix2 p k) * yblk m c t (ix2 p k)
      = ∑ j : Fin 4096, (fun R j => ext (yarr m c) R j * ext (yarr m c) R j) (256 * (t.val / 16) + p.val) (4096 * (t.val % 16) + j.val) :=
  Finset.sum_congr rfl fun k _ => by rw [yblk_apply m c t p k]

theorem lane_xy (c : Dev nD) (t : Fin cfg0.N) (p : Fin 256) :
    ∑ k : Fin 4096, xblk m c t (ix2 p k) * yblk m c t (ix2 p k)
      = ∑ j : Fin 4096, (fun R j => ext (xarr m c) R j * ext (yarr m c) R j) (256 * (t.val / 16) + p.val) (4096 * (t.val % 16) + j.val) :=
  Finset.sum_congr rfl fun k _ => by rw [xblk_apply m c t p k, yblk_apply m c t p k]

/-- The first point of a row block: 0 plus the first lane sum is the partial sum over the first 4096 columns. -/
theorem first_step (f : ℕ → ℕ → EReal) (R k : ℕ) (hk : k = 0) (z s : EReal) (hz : z = 0)
    (hs : s = ∑ j : Fin 4096, f R (4096 * k + j.val)) : z + s = psum f R (4096 * (k + 1)) := by
  subst hk hz hs
  rw [psum_step, psum_zero]

/-- A later point: the partial sum so far plus the next lane sum. -/
theorem next_step (f : ℕ → ℕ → EReal) (R R' k k' : ℕ) (hR : R' = R) (hk : k' + 1 = k) (prev s : EReal)
    (hprev : prev = psum f R' (4096 * (k' + 1))) (hs : s = ∑ j : Fin 4096, f R (4096 * k + j.val)) :
    prev + s = psum f R (4096 * (k + 1)) := by
  subst hR hk hprev hs
  rw [psum_step f R' (k' + 1)]

theorem inv (c : Dev nD) : ∀ (n : ℕ) (hn : n < cfg0.N), Inv m c n hn := by
  intro n
  induction n using Nat.strong_induction_on with
  | _ n ih =>
    intro hn p q
    have hN : n < 32 := lt_of_lt_of_eq hn N_0
    by_cases h0 : n % 16 = 0
    · have h1 : ¬ n % 16 = 15 := by omega
      rw [show outsAt0 m c n hn = _ from outsAt0_A m c ⟨n, hn⟩ h0 h1]
      dsimp only
      refine ⟨?_, ?_, ?_, ?_, ?_⟩
      · refine (congrFun (Pieces.sA0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) ((hcond0_0 ⟨n, hn⟩).mpr h0) (fun h => h1 ((hcond0_1 ⟨n, hn⟩).mp h))) (ix2 p q)).trans ?_
        refine (Payloads.pay9_apply (xblk m c ⟨n, hn⟩) (k0_pay4 (F := Ideal)) p q).trans ?_
        exact first_step (ext (xarr m c)) (256 * (n / 16) + p.val) (n % 16) h0 _ _ (Payloads.pay4_apply p q) (lane_x m c ⟨n, hn⟩ p)
      · refine (congrFun (Pieces.sA1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) ((hcond0_0 ⟨n, hn⟩).mpr h0) (fun h => h1 ((hcond0_1 ⟨n, hn⟩).mp h))) (ix2 p q)).trans ?_
        refine (Payloads.pay10_apply (yblk m c ⟨n, hn⟩) (k0_pay5 (F := Ideal)) p q).trans ?_
        exact first_step (ext (yarr m c)) (256 * (n / 16) + p.val) (n % 16) h0 _ _ (Payloads.pay5_apply p q) (lane_y m c ⟨n, hn⟩ p)
      · refine (congrFun (Pieces.sA2 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) ((hcond0_0 ⟨n, hn⟩).mpr h0) (fun h => h1 ((hcond0_1 ⟨n, hn⟩).mp h))) (ix2 p q)).trans ?_
        refine (Payloads.pay11_apply (xblk m c ⟨n, hn⟩) (k0_pay6 (F := Ideal)) p q).trans ?_
        exact first_step (fun R j => ext (xarr m c) R j * ext (xarr m c) R j) (256 * (n / 16) + p.val) (n % 16) h0 _ _ (Payloads.pay6_apply p q) (lane_xx m c ⟨n, hn⟩ p)
      · refine (congrFun (Pieces.sA3 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) ((hcond0_0 ⟨n, hn⟩).mpr h0) (fun h => h1 ((hcond0_1 ⟨n, hn⟩).mp h))) (ix2 p q)).trans ?_
        refine (Payloads.pay1_12_apply (k0_pay7 (F := Ideal)) (yblk m c ⟨n, hn⟩) p q).trans ?_
        exact first_step (fun R j => ext (yarr m c) R j * ext (yarr m c) R j) (256 * (n / 16) + p.val) (n % 16) h0 _ _ (Payloads.pay7_apply p q) (lane_yy m c ⟨n, hn⟩ p)
      · refine (congrFun (Pieces.sA4 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) ((hcond0_0 ⟨n, hn⟩).mpr h0) (fun h => h1 ((hcond0_1 ⟨n, hn⟩).mp h))) (ix2 p q)).trans ?_
        refine (Payloads.pay2_apply (xblk m c ⟨n, hn⟩) (yblk m c ⟨n, hn⟩) (k0_pay8 (F := Ideal)) p q).trans ?_
        exact first_step (fun R j => ext (xarr m c) R j * ext (yarr m c) R j) (256 * (n / 16) + p.val) (n % 16) h0 _ _ (Payloads.pay8_apply p q) (lane_xy m c ⟨n, hn⟩ p)
    · by_cases h1 : n % 16 = 15
      · have hn' : n - 1 < cfg0.N := Nat.lt_of_le_of_lt (Nat.sub_le _ _) hn
        have hR : 256 * ((n - 1) / 16) + p.val = 256 * (n / 16) + p.val := by omega
        have hk : (n - 1) % 16 + 1 = n % 16 := by omega
        obtain ⟨i0, i1, i2, i3, i4⟩ := ih (n - 1) (by omega) hn' p q
        rw [show outsAt0 m c n hn = _ from outsAt0_C m c ⟨n, hn⟩ h0 h1]
        dsimp only
        refine ⟨?_, ?_, ?_, ?_, ?_⟩
        · refine (congrFun (Pieces.sC0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) ((hcond0_1 ⟨n, hn⟩).mpr h1)) (ix2 p q)).trans ?_
          refine (Payloads.pay9_apply (xblk m c ⟨n, hn⟩) (outsAt0 m c (n - 1) hn').2.1 p q).trans ?_
          exact next_step (ext (xarr m c)) (256 * (n / 16) + p.val) (256 * ((n - 1) / 16) + p.val) (n % 16) ((n - 1) % 16) hR hk _ _ i0 (lane_x m c ⟨n, hn⟩ p)
        · refine (congrFun (Pieces.sC1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) ((hcond0_1 ⟨n, hn⟩).mpr h1)) (ix2 p q)).trans ?_
          refine (Payloads.pay10_apply (yblk m c ⟨n, hn⟩) (outsAt0 m c (n - 1) hn').2.2.1 p q).trans ?_
          exact next_step (ext (yarr m c)) (256 * (n / 16) + p.val) (256 * ((n - 1) / 16) + p.val) (n % 16) ((n - 1) % 16) hR hk _ _ i1 (lane_y m c ⟨n, hn⟩ p)
        · refine (congrFun (Pieces.sC2 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) ((hcond0_1 ⟨n, hn⟩).mpr h1)) (ix2 p q)).trans ?_
          refine (Payloads.pay11_apply (xblk m c ⟨n, hn⟩) (outsAt0 m c (n - 1) hn').2.2.2.1 p q).trans ?_
          exact next_step (fun R j => ext (xarr m c) R j * ext (xarr m c) R j) (256 * (n / 16) + p.val) (256 * ((n - 1) / 16) + p.val) (n % 16) ((n - 1) % 16) hR hk _ _ i2 (lane_xx m c ⟨n, hn⟩ p)
        · refine (congrFun (Pieces.sC3 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) ((hcond0_1 ⟨n, hn⟩).mpr h1)) (ix2 p q)).trans ?_
          refine (Payloads.pay1_12_apply (outsAt0 m c (n - 1) hn').2.2.2.2.1 (yblk m c ⟨n, hn⟩) p q).trans ?_
          exact next_step (fun R j => ext (yarr m c) R j * ext (yarr m c) R j) (256 * (n / 16) + p.val) (256 * ((n - 1) / 16) + p.val) (n % 16) ((n - 1) % 16) hR hk _ _ i3 (lane_yy m c ⟨n, hn⟩ p)
        · refine (congrFun (Pieces.sC4 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) ((hcond0_1 ⟨n, hn⟩).mpr h1)) (ix2 p q)).trans ?_
          refine (Payloads.pay2_apply (xblk m c ⟨n, hn⟩) (yblk m c ⟨n, hn⟩) (outsAt0 m c (n - 1) hn').2.2.2.2.2 p q).trans ?_
          exact next_step (fun R j => ext (xarr m c) R j * ext (yarr m c) R j) (256 * (n / 16) + p.val) (256 * ((n - 1) / 16) + p.val) (n % 16) ((n - 1) % 16) hR hk _ _ i4 (lane_xy m c ⟨n, hn⟩ p)
      · have hn' : n - 1 < cfg0.N := Nat.lt_of_le_of_lt (Nat.sub_le _ _) hn
        have hR : 256 * ((n - 1) / 16) + p.val = 256 * (n / 16) + p.val := by omega
        have hk : (n - 1) % 16 + 1 = n % 16 := by omega
        obtain ⟨i0, i1, i2, i3, i4⟩ := ih (n - 1) (by omega) hn' p q
        rw [show outsAt0 m c n hn = _ from outsAt0_B m c ⟨n, hn⟩ h0 h1]
        dsimp only
        refine ⟨?_, ?_, ?_, ?_, ?_⟩
        · refine (congrFun (Pieces.sB0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) (fun h => h1 ((hcond0_1 ⟨n, hn⟩).mp h))) (ix2 p q)).trans ?_
          refine (Payloads.pay9_apply (xblk m c ⟨n, hn⟩) (outsAt0 m c (n - 1) hn').2.1 p q).trans ?_
          exact next_step (ext (xarr m c)) (256 * (n / 16) + p.val) (256 * ((n - 1) / 16) + p.val) (n % 16) ((n - 1) % 16) hR hk _ _ i0 (lane_x m c ⟨n, hn⟩ p)
        · refine (congrFun (Pieces.sB1 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) (fun h => h1 ((hcond0_1 ⟨n, hn⟩).mp h))) (ix2 p q)).trans ?_
          refine (Payloads.pay10_apply (yblk m c ⟨n, hn⟩) (outsAt0 m c (n - 1) hn').2.2.1 p q).trans ?_
          exact next_step (ext (yarr m c)) (256 * (n / 16) + p.val) (256 * ((n - 1) / 16) + p.val) (n % 16) ((n - 1) % 16) hR hk _ _ i1 (lane_y m c ⟨n, hn⟩ p)
        · refine (congrFun (Pieces.sB2 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) (fun h => h1 ((hcond0_1 ⟨n, hn⟩).mp h))) (ix2 p q)).trans ?_
          refine (Payloads.pay11_apply (xblk m c ⟨n, hn⟩) (outsAt0 m c (n - 1) hn').2.2.2.1 p q).trans ?_
          exact next_step (fun R j => ext (xarr m c) R j * ext (xarr m c) R j) (256 * (n / 16) + p.val) (256 * ((n - 1) / 16) + p.val) (n % 16) ((n - 1) % 16) hR hk _ _ i2 (lane_xx m c ⟨n, hn⟩ p)
        · refine (congrFun (Pieces.sB3 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) (fun h => h1 ((hcond0_1 ⟨n, hn⟩).mp h))) (ix2 p q)).trans ?_
          refine (Payloads.pay1_12_apply (outsAt0 m c (n - 1) hn').2.2.2.2.1 (yblk m c ⟨n, hn⟩) p q).trans ?_
          exact next_step (fun R j => ext (yarr m c) R j * ext (yarr m c) R j) (256 * (n / 16) + p.val) (256 * ((n - 1) / 16) + p.val) (n % 16) ((n - 1) % 16) hR hk _ _ i3 (lane_yy m c ⟨n, hn⟩ p)
        · refine (congrFun (Pieces.sB4 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) scM0_1 (Memref.isWhole_whole _) scM0_2 (Memref.isWhole_whole _) scM0_3 (Memref.isWhole_whole _) scM0_4 (Memref.isWhole_whole _) (iblk m c 0 ⟨n, hn⟩) (iblk m c 1 ⟨n, hn⟩) (outsAt0 m c (n - 1) hn').2.1 (outsAt0 m c (n - 1) hn').2.2.1 (outsAt0 m c (n - 1) hn').2.2.2.1 (outsAt0 m c (n - 1) hn').2.2.2.2.1 (outsAt0 m c (n - 1) hn').2.2.2.2.2 (fun h => h0 ((hcond0_0 ⟨n, hn⟩).mp h)) (fun h => h1 ((hcond0_1 ⟨n, hn⟩).mp h))) (ix2 p q)).trans ?_
          refine (Payloads.pay2_apply (xblk m c ⟨n, hn⟩) (yblk m c ⟨n, hn⟩) (outsAt0 m c (n - 1) hn').2.2.2.2.2 p q).trans ?_
          exact next_step (fun R j => ext (xarr m c) R j * ext (yarr m c) R j) (256 * (n / 16) + p.val) (256 * ((n - 1) / 16) + p.val) (n % 16) ((n - 1) % 16) hR hk _ _ i4 (lane_xy m c ⟨n, hn⟩ p)

/-! ### What a row block's last point writes back, and the array after the run -/

/-- At k = 15 the output block's five columns are the five running sums as that point leaves them. -/
theorem out_cols (c : Dev nD) (t : Fin cfg0.N) (h0 : ¬ t.val % 16 = 0) (h15 : t.val % 16 = 15) (p : Fin 256) :
    (outsAt0 m c t.val t.isLt).1 (ix2 p (0 : Fin 5)) = (outsAt0 m c t.val t.isLt).2.1 (ix2 p (0 : Fin 1))
    ∧ (outsAt0 m c t.val t.isLt).1 (ix2 p (1 : Fin 5)) = (outsAt0 m c t.val t.isLt).2.2.1 (ix2 p (0 : Fin 1))
    ∧ (outsAt0 m c t.val t.isLt).1 (ix2 p (2 : Fin 5)) = (outsAt0 m c t.val t.isLt).2.2.2.1 (ix2 p (0 : Fin 1))
    ∧ (outsAt0 m c t.val t.isLt).1 (ix2 p (3 : Fin 5)) = (outsAt0 m c t.val t.isLt).2.2.2.2.1 (ix2 p (0 : Fin 1))
    ∧ (outsAt0 m c t.val t.isLt).1 (ix2 p (4 : Fin 5)) = (outsAt0 m c t.val t.isLt).2.2.2.2.2 (ix2 p (0 : Fin 1)) := by
  rw [outsAt0_C m c t h0 h15]
  dsimp only
  rw [Pieces.oC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h15),
    Pieces.sC0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h15),
    Pieces.sC1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h15),
    Pieces.sC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h15),
    Pieces.sC3 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h15),
    Pieces.sC4 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (fun h => h0 ((hcond0_0 t).mp h)) ((hcond0_1 t).mpr h15)]
  exact ⟨Payloads.pay3_apply0 _ _ _ _ _ p, Payloads.pay3_apply1 _ _ _ _ _ p, Payloads.pay3_apply2 _ _ _ _ _ p,
    Payloads.pay3_apply3 _ _ _ _ _ p, Payloads.pay3_apply4 _ _ _ _ _ p⟩

theorem psum_all (a : S512x65536.Idx → EReal) (r : Fin 512) :
    psum (ext a) r.val (4096 * (15 + 1)) = Cert.Stats.rsum a r := by
  unfold psum Cert.Stats.rsum
  rw [show 4096 * (15 + 1) = 65536 from rfl, ← Fin.sum_univ_eq_sum_range (fun j => ext a r.val j) 65536]
  refine Finset.sum_congr rfl fun j _ => ?_
  unfold ext
  rw [dif_pos ⟨r.isLt, j.isLt⟩]

theorem psum_all2 (a b : S512x65536.Idx → EReal) (r : Fin 512) :
    psum (fun R j => ext a R j * ext b R j) r.val (4096 * (15 + 1)) = Cert.Stats.rsum2 a b r := by
  unfold psum Cert.Stats.rsum2
  rw [show 4096 * (15 + 1) = 65536 from rfl, ← Fin.sum_univ_eq_sum_range (fun j => ext a r.val j * ext b r.val j) 65536]
  refine Finset.sum_congr rfl fun j _ => ?_
  unfold ext
  rw [dif_pos ⟨r.isLt, j.isLt⟩, dif_pos ⟨r.isLt, j.isLt⟩]

/-- The columns of the array of raw sums. -/
theorem statsG_col0 (x y : S512x65536.Idx → EReal) (r : Fin 512) (k : Fin 5) (hk : k.val = 0) :
    Cert.Stats.statsG x y (ix2 r k) = Cert.Stats.rsum x r := by
  simp [Cert.Stats.statsG, show ((ix2 r k) 1).val = k.val from rfl, hk]

theorem statsG_col1 (x y : S512x65536.Idx → EReal) (r : Fin 512) (k : Fin 5) (hk : k.val = 1) :
    Cert.Stats.statsG x y (ix2 r k) = Cert.Stats.rsum y r := by
  simp [Cert.Stats.statsG, show ((ix2 r k) 1).val = k.val from rfl, hk]

theorem statsG_col2 (x y : S512x65536.Idx → EReal) (r : Fin 512) (k : Fin 5) (hk : k.val = 2) :
    Cert.Stats.statsG x y (ix2 r k) = Cert.Stats.rsum2 x x r := by
  simp [Cert.Stats.statsG, show ((ix2 r k) 1).val = k.val from rfl, hk]

theorem statsG_col3 (x y : S512x65536.Idx → EReal) (r : Fin 512) (k : Fin 5) (hk : k.val = 3) :
    Cert.Stats.statsG x y (ix2 r k) = Cert.Stats.rsum2 y y r := by
  simp [Cert.Stats.statsG, show ((ix2 r k) 1).val = k.val from rfl, hk]

theorem statsG_col4 (x y : S512x65536.Idx → EReal) (r : Fin 512) (k : Fin 5) (hk : k.val = 4) :
    Cert.Stats.statsG x y (ix2 r k) = Cert.Stats.rsum2 x y r := by
  simp [Cert.Stats.statsG, show ((ix2 r k) 1).val = k.val from rfl, hk]

/-- The output block of a row block's last point, entry by entry: the raw sums of the rows it covers. -/
theorem out_apply (c : Dev nD) (t : Fin cfg0.N) (h15 : t.val % 16 = 15) (p : Fin 256) (k : Fin 5)
    (hr : 256 * (t.val / 16) + p.val < 512) :
    (outsAt0 m c t.val t.isLt).1 (ix2 p k)
      = Cert.Stats.statsG (xarr m c) (yarr m c) (ix2 (⟨256 * (t.val / 16) + p.val, hr⟩ : Fin 512) k) := by
  have h0 : ¬ t.val % 16 = 0 := by omega
  obtain ⟨c0, c1, c2, c3, c4⟩ := out_cols m c t h0 h15 p
  obtain ⟨i0, i1, i2, i3, i4⟩ := inv m c t.val t.isLt p (0 : Fin 1)
  rw [h15] at i0 i1 i2 i3 i4
  match k with
  | ⟨0, _⟩ => exact c0.trans (i0.trans ((psum_all (xarr m c) ⟨_, hr⟩).trans (statsG_col0 _ _ _ _ rfl).symm))
  | ⟨1, _⟩ => exact c1.trans (i1.trans ((psum_all (yarr m c) ⟨_, hr⟩).trans (statsG_col1 _ _ _ _ rfl).symm))
  | ⟨2, _⟩ => exact c2.trans (i2.trans ((psum_all2 (xarr m c) (xarr m c) ⟨_, hr⟩).trans (statsG_col2 _ _ _ _ rfl).symm))
  | ⟨3, _⟩ => exact c3.trans (i3.trans ((psum_all2 (yarr m c) (yarr m c) ⟨_, hr⟩).trans (statsG_col3 _ _ _ _ rfl).symm))
  | ⟨4, _⟩ => exact c4.trans (i4.trans ((psum_all2 (xarr m c) (yarr m c) ⟨_, hr⟩).trans (statsG_col4 _ _ _ _ rfl).symm))

/-- What a flushing point writes back is its block of the array of raw sums. -/
theorem flushed_eq (c : Dev nD) (t : Fin cfg0.N) (hf : (cfg0.win 2).flush t = true) :
    (dats m 0 c).flushed 2 t
      = ((cfg0.win 2).blk t).view.read (Elt Ideal) (Cert.Stats.statsG (xarr m c) (yarr m c)) := by
  have h15 : t.val % 16 = 15 := (flush0_2 t).mp hf
  have hN : t.val < 32 := lt_of_lt_of_eq t.isLt N_0
  obtain ⟨-, -, -, -, e0, e1⟩ := idx_facts t
  show (cfg0.win 2).cut (grid0.coords t) ((dats m 0 c).after 2 t) = _
  rw [after0_2]
  funext j
  show (outsAt0 m c t.val t.isLt).1 j = Cert.Stats.statsG (xarr m c) (yarr m c) (((cfg0.win 2).blk t).view.emb j)
  obtain ⟨p, k, rfl⟩ : ∃ (p : Fin 256) (k : Fin 5), j = ix2 p k := ⟨j 0, j 1, eq_ix2 j⟩
  have hp := p.isLt
  have hr : 256 * (t.val / 16) + p.val < 512 := by omega
  refine (out_apply m c t h15 p k hr).trans (congrArg _ (funext fun a => Fin.ext ?_))
  match a with
  | ⟨0, _⟩ => show 256 * (t.val / 16) + p.val = win0_2.index t (0 : Fin 2) * 256 + 1 * p.val; omega
  | ⟨1, _⟩ => show k.val = win0_2.index t (1 : Fin 2) * 5 + 1 * k.val; omega

/-- An index of the array is in point t's block iff each coordinate is in the block's range on its axis. -/
theorem mem_blk (t : Fin cfg0.N) (i : S512x5.Idx) :
    i ∈ ((cfg0.win 2).blk t).view.set ↔ ∀ a : Fin 2, win0_2.index t a * S256x5.size a ≤ (i a).val ∧ (i a).val < win0_2.index t a * S256x5.size a + S256x5.size a := by
  show i ∈ ((View.whole main_v0).slice (win0_2.rect t)).set ↔ _
  rw [View.set_slice_whole, Rect.mem_set_unit]
  exact Iff.rfl

/-- The two row blocks' last points cover the array. -/
theorem cover (i : S512x5.Idx) : ∃ t : Fin cfg0.N, (cfg0.win 2).flush t = true ∧ i ∈ ((cfg0.win 2).blk t).view.set := by
  have hi0 : (i 0).val < 512 := (i 0).isLt
  have hi1 : (i 1).val < 5 := (i 1).isLt
  have hN : cfg0.N = 32 := N_0
  refine ⟨⟨16 * ((i 0).val / 256) + 15, by omega⟩, (flush0_2 _).mpr (by show (16 * ((i 0).val / 256) + 15) % 16 = 15; omega), ?_⟩
  obtain ⟨-, -, -, -, e0, e1⟩ := idx_facts ⟨16 * ((i 0).val / 256) + 15, by omega⟩
  rw [mem_blk]
  intro a
  match a with
  | ⟨0, _⟩ =>
    show win0_2.index _ (0 : Fin 2) * 256 ≤ (i 0).val ∧ (i 0).val < win0_2.index _ (0 : Fin 2) * 256 + 256
    rw [e0]; show (16 * ((i 0).val / 256) + 15) / 16 * 256 ≤ (i 0).val ∧ (i 0).val < (16 * ((i 0).val / 256) + 15) / 16 * 256 + 256; omega
  | ⟨1, _⟩ =>
    show win0_2.index _ (1 : Fin 2) * 5 ≤ (i 1).val ∧ (i 1).val < win0_2.index _ (1 : Fin 2) * 5 + 5
    rw [e1]; omega

/-- THE ARRAY after the run: the raw sums of every row of the two arguments. -/
theorem final (c : Dev nD) :
    (dats m 0 c).arrAt 2 cfg0.N
      = Cert.Stats.statsG (m ((c : Thread nD τ).loc main_arg0)) (m ((c : Thread nD τ).loc main_arg1)) :=
  (dats m 0 c).arrAt_eq_of_cover 2 (Cert.Stats.statsG (xarr m c) (yarr m c)) (fun t hf => flushed_eq m c t hf) cover

end Cert.KernelIdeal.StatsValue

end
-- ==== Proof.KernelTail.lean ====
/-
  THE HOST OPERATIONS AFTER THE REGION. The region leaves a 512 × 5 array; the operations that follow cut its five
  columns out, divide each by the row length, form from the first two columns the means, from the other three the two
  variances and the covariance (a column's quotient less a product of means), and feed the five vectors to the shared
  last stretch. When the array is the array of raw row sums, the five vectors are, entry by entry, meanK and covK of
  the two inputs, so the scalar left at the end is the result from the raw sums.
-/
import proofs.«160888_j45646912422065_1_alg».proof.Proof.Gen.KernelIdeal.Frame
import proofs.«160888_j45646912422065_1_alg».proof.Proof.StatsG
import Idealize.ShloMosaic.Lib.Pipeline.Value
import Idealize.ShloMosaic.Lib.StableHlo.Run
import Idealize.ShloMosaic.Lib.ValueIdx

noncomputable section

namespace Cert.KernelIdeal.Tail

open Idealize.ShloMosaic Idealize.ShloMosaic.TcCoe Idealize.ShloMosaic.ValueIdx Idealize.SL.Sem
open Cert.KernelIdeal Cert.KernelIdeal.Gen

/-- Column `off 1` of a 512 × 5 array, as a vector of 512 entries: the slice of width one, reshaped. -/
def col (off : Fin 2 → Nat) (hs : S512x5.Slices off S512x1) (g : S512x5.Idx → EReal) : S512.Idx → EReal :=
  fun i => shapeCast S512 (extractStridedSlice S512x1 off g hs) shapeCasts_S512x1_S512 i

/-- A column divided, entry by entry, by the row length (the pattern 0x47800000 splat over the 512 rows). -/
def mcol (off : Fin 2 → Nat) (hs : S512x5.Slices off S512x1) (g : S512x5.Idx → EReal) : FVec Ideal S512 .f32 :=
  Host.divf (F := Ideal) (col off hs g)
    (broadcastInDim S512 ![] bcast_S_S512 (constant (F := Ideal) S_ .f32 0x47800000#32))

/-- The five vectors the last stretch takes, as the operations spell them from the 512 × 5 array. -/
def mX (g : S512x5.Idx → EReal) : FVec Ideal S512 .f32 := mcol ![0, 0] slices_S512x5_S512x1_0_0 g
def mY (g : S512x5.Idx → EReal) : FVec Ideal S512 .f32 := mcol ![0, 1] slices_S512x5_S512x1_0_1 g
def vX (g : S512x5.Idx → EReal) : FVec Ideal S512 .f32 :=
  subf (mcol ![0, 2] slices_S512x5_S512x1_0_2 g) (mulf (mX g) (mX g))
def vY (g : S512x5.Idx → EReal) : FVec Ideal S512 .f32 :=
  subf (mcol ![0, 3] slices_S512x5_S512x1_0_3 g) (mulf (mY g) (mY g))
def cXY (g : S512x5.Idx → EReal) : FVec Ideal S512 .f32 :=
  subf (mcol ![0, 4] slices_S512x5_S512x1_0_4 g) (mulf (mX g) (mY g))

set_option maxHeartbeats 1600000 in
/-- The host operations after the region, run from any contents `W`, leave in the result buffer the shared last
    stretch applied to the five vectors read off the 512 × 5 array `W` holds. -/
theorem after_tail (W : Valuation τ sig (Elt Ideal)) :
    StableHlo.after (hostOps1 (F := Ideal)) W (Proc.devRef .tc main_v39)
      = Cert.Stats.tailV (mX (W (Proc.devRef .tc main_v0))) (mY (W (Proc.devRef .tc main_v0)))
          (vX (W (Proc.devRef .tc main_v0))) (vY (W (Proc.devRef .tc main_v0))) (cXY (W (Proc.devRef .tc main_v0))) := by
  after_results_simp
  rfl

/-! ## The five vectors, entry by entry -/

/-- The slice of width one at column `k`, reshaped to a vector, reads the array at (row, k). -/
theorem col_apply (k : ℕ) (hk : k < 5) (hs : S512x5.Slices ![0, k] S512x1) (g : S512x5.Idx → EReal) (r : Fin 512) :
    col ![0, k] hs g (ix1 r) = g (ix2 r ⟨k, hk⟩) := by
  unfold col
  rw [shapeCast_apply (extractStridedSlice S512x1 ![0, k] g hs) shapeCasts_S512x1_S512 (ix1 r) (ix2 r (0 : Fin 1))
        (by rw [Shape.rowMajor_val_two, Shape.rowMajor_val_one]; show r.val * 1 + 0 = r.val; omega)]
  refine extractStridedSlice_apply ![0, k] g hs _ _ (Fin.forall_fin_two.2 ⟨?_, ?_⟩)
  · show r.val = 0 + r.val
    omega
  · show k = k + 0
    omega

/-- A column's mean vector at a row: that column's entry divided by the row length. -/
theorem mcol_apply (k : ℕ) (hk : k < 5) (hs : S512x5.Slices ![0, k] S512x1) (g : S512x5.Idx → EReal) (r : Fin 512) :
    mcol ![0, k] hs g (ix1 r) = Ideal.div (g (ix2 r ⟨k, hk⟩)) Cert.Stats.T := by
  show Ideal.div (col ![0, k] hs g (ix1 r)) Cert.Stats.T = _
  rw [col_apply k hk]

/-- The array of raw sums at (row, column k), the column number still to be decided. -/
theorem statsG_at (x y : Cert.Stats.S512x65536.Idx → EReal) (r : Fin 512) (k : ℕ) (hk : k < 5) :
    Cert.Stats.statsG x y (ix2 r ⟨k, hk⟩)
      = if k = 0 then Cert.Stats.rsum x r else if k = 1 then Cert.Stats.rsum y r
        else if k = 2 then Cert.Stats.rsum2 x x r else if k = 3 then Cert.Stats.rsum2 y y r else Cert.Stats.rsum2 x y r := rfl

/-- A statement about every index of a vector of 512 entries, from the same about every row number. -/
theorem forall_ix1 {p : S512.Idx → Prop} (h : ∀ r : Fin 512, p (ix1 r)) (i : S512.Idx) : p i := by
  rw [eq_ix1 i]
  exact h (i 0)

section Five
variable (x y : Cert.Stats.S512x65536.Idx → EReal)

theorem mX_apply (r : Fin 512) : mX (Cert.Stats.statsG x y) (ix1 r) = Cert.Stats.meanK x r := by
  unfold mX
  rw [mcol_apply 0 (by omega), statsG_at, if_pos rfl]
  rfl

theorem mY_apply (r : Fin 512) : mY (Cert.Stats.statsG x y) (ix1 r) = Cert.Stats.meanK y r := by
  unfold mY
  rw [mcol_apply 1 (by omega), statsG_at, if_neg (by omega), if_pos rfl]
  rfl

theorem vX_apply (r : Fin 512) : vX (Cert.Stats.statsG x y) (ix1 r) = Cert.Stats.covK x x r := by
  show mcol ![0, 2] slices_S512x5_S512x1_0_2 (Cert.Stats.statsG x y) (ix1 r)
      - mX (Cert.Stats.statsG x y) (ix1 r) * mX (Cert.Stats.statsG x y) (ix1 r) = _
  rw [mX_apply, mcol_apply 2 (by omega), statsG_at, if_neg (by omega), if_neg (by omega), if_pos rfl]
  rfl

theorem vY_apply (r : Fin 512) : vY (Cert.Stats.statsG x y) (ix1 r) = Cert.Stats.covK y y r := by
  show mcol ![0, 3] slices_S512x5_S512x1_0_3 (Cert.Stats.statsG x y) (ix1 r)
      - mY (Cert.Stats.statsG x y) (ix1 r) * mY (Cert.Stats.statsG x y) (ix1 r) = _
  rw [mY_apply, mcol_apply 3 (by omega), statsG_at, if_neg (by omega), if_neg (by omega), if_neg (by omega), if_pos rfl]
  rfl

theorem cXY_apply (r : Fin 512) : cXY (Cert.Stats.statsG x y) (ix1 r) = Cert.Stats.covK x y r := by
  show mcol ![0, 4] slices_S512x5_S512x1_0_4 (Cert.Stats.statsG x y) (ix1 r)
      - mX (Cert.Stats.statsG x y) (ix1 r) * mY (Cert.Stats.statsG x y) (ix1 r) = _
  rw [mX_apply, mY_apply, mcol_apply 4 (by omega), statsG_at, if_neg (by omega), if_neg (by omega), if_neg (by omega),
    if_neg (by omega)]
  rfl

/-- The last stretch applied to the five vectors read off the array of raw sums is the result from the raw sums. -/
theorem tailV_statsG :
    Cert.Stats.tailV (mX (Cert.Stats.statsG x y)) (mY (Cert.Stats.statsG x y)) (vX (Cert.Stats.statsG x y))
        (vY (Cert.Stats.statsG x y)) (cXY (Cert.Stats.statsG x y)) = Cert.Stats.resultK x y := by
  have e1 : mX (Cert.Stats.statsG x y) = fun i => Cert.Stats.meanK x (i 0) := funext (forall_ix1 (mX_apply x y))
  have e2 : mY (Cert.Stats.statsG x y) = fun i => Cert.Stats.meanK y (i 0) := funext (forall_ix1 (mY_apply x y))
  have e3 : vX (Cert.Stats.statsG x y) = fun i => Cert.Stats.covK x x (i 0) := funext (forall_ix1 (vX_apply x y))
  have e4 : vY (Cert.Stats.statsG x y) = fun i => Cert.Stats.covK y y (i 0) := funext (forall_ix1 (vY_apply x y))
  have e5 : cXY (Cert.Stats.statsG x y) = fun i => Cert.Stats.covK x y (i 0) := funext (forall_ix1 (cXY_apply x y))
  unfold Cert.Stats.resultK
  rw [e1, e2, e3, e4, e5]

end Five

/-! ## The run -/

variable (m : (ℓ : Loc nD τ sig) → Buf (Elt Ideal) ℓ) (ρ : Dev nD → PrngReg)

/-- If the region leaves the array of raw row sums in its output, the program ends with the result from the raw sums
    in its result buffer, and with its arguments unchanged. -/
theorem run_of_final
    (hfinal : ∀ c : Dev nD, (dats (F := Ideal) m 0 c).arrAt 2 cfg0.N
      = Cert.Stats.statsG (m ((c : Thread nD τ).loc main_arg0)) (m ((c : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v39)
          = Cert.Stats.resultK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨by
      refine ((h c).2 main_v39 (Pipeline.mem_restRefs_of main_v39 (by decide) (by decide))).trans ?_
      unfold Pipeline.afterTail₀
      show StableHlo.after (hostOps1 (F := Ideal)) _ (Proc.devRef .tc main_v39) = _
      rw [after_tail,
        (Pipeline.withArrays_arr spec0 launch0.win.arr_inj c _ _ 2).trans (hfinal c)]
      exact tailV_statsG _ _,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

end Cert.KernelIdeal.Tail

end
-- ==== Proof.lean ====
/-
  A concordance-correlation loss over two 512 × 65536 arrays x, y, computed two ways.

  The kernel streams both arrays once: for each row it keeps the five sums Σx, Σy, Σx², Σy², Σxy, accumulated over
  sixteen column blocks, and the host code after it forms  mean = Σ / T,  var_x = Σx² / T − mean_x²,
  cov = Σxy / T − mean_x · mean_y  (T = 65536).  The reference centres every row at its mean and averages the centred
  products.  Both end with the mean over the rows of  1 − 2·cov / (var_x + var_y + (mean_x − mean_y)² + ε).

  With every input entry a real number (the precondition) the row sums are real, and
      (Σ_j (x_j − μ)(y_j − ν)) / T = (Σ_j x_j y_j) / T − μ ν      for μ = Σx / T, ν = Σy / T,
  so the five per-row statistics agree and the shared last stretch is applied to equal arguments.

  The frames of the two kernel programs are the generated ones; the reference's frame is its run with the result
  dropped.  The idealization rewrote nothing, so there is nothing to preserve.
-/
import proofs.«160888_j45646912422065_1_alg».proof.Defs
import proofs.«160888_j45646912422065_1_alg».proof.Proof.Gen.Kernel
import proofs.«160888_j45646912422065_1_alg».proof.Proof.Gen.Kernel.Skeleton
import proofs.«160888_j45646912422065_1_alg».proof.Proof.Gen.Kernel.Launch
import proofs.«160888_j45646912422065_1_alg».proof.Proof.Gen.Kernel.Points
import proofs.«160888_j45646912422065_1_alg».proof.Proof.Gen.Kernel.Frame
import proofs.«160888_j45646912422065_1_alg».proof.Proof.Gen.KernelIdeal
import proofs.«160888_j45646912422065_1_alg».proof.Proof.Gen.KernelIdeal.Skeleton
import proofs.«160888_j45646912422065_1_alg».proof.Proof.Gen.KernelIdeal.Launch
import proofs.«160888_j45646912422065_1_alg».proof.Proof.Gen.KernelIdeal.Points
import proofs.«160888_j45646912422065_1_alg».proof.Proof.Gen.KernelIdeal.Frame
import proofs.«160888_j45646912422065_1_alg».proof.Proof.Gen.ReferenceIdeal
import proofs.«160888_j45646912422065_1_alg».proof.Proof.Gen.ReferenceIdeal.Run
import proofs.«160888_j45646912422065_1_alg».proof.Proof.Gen.Pre_finite_inputs
import proofs.«160888_j45646912422065_1_alg».proof.Proof.Stats
import proofs.«160888_j45646912422065_1_alg».proof.Proof.Bridge
import proofs.«160888_j45646912422065_1_alg».proof.Proof.Finite
import proofs.«160888_j45646912422065_1_alg».proof.Proof.RefValue
import proofs.«160888_j45646912422065_1_alg».proof.Proof.KernelStats
import proofs.«160888_j45646912422065_1_alg».proof.Proof.KernelTail
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Value.run (F := Ideal) m ρ)

/-- Both runs end at the result formed from the raw sums: the kernel by what its grid accumulates and its host
    stretch, the reference because on real entries centring first changes none of the five statistics. -/
theorem algebraic :
    @Cert.algebraic_KernelIdeal_ReferenceIdeal Cert.KernelIdeal.Gen.facts Cert.ReferenceIdeal.Gen.facts
      Cert.Pre_finite_inputs.Gen.facts := by
  intro m ρ m' ρ' hpre hagree
  have hfin := fun c : Dev Cert.KernelIdeal.nD =>
    @Cert.Finite.real_of_pre Cert.Pre_finite_inputs.Gen.facts _ _ (hpre c)
  refine ⟨fun c => Cert.Stats.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tail.run_of_final m ρ (Cert.KernelIdeal.StatsValue.final m), ?_⟩
  refine (θ_run Cert.ReferenceIdeal.defs _ _).mono (fun r h c => ⟨(h c).1.trans ?_, (h c).2⟩)
    (Cert.ReferenceIdeal.RefValue.run m' ρ')
  rw [(hagree c).1, (hagree c).2]
  exact Cert.Stats.resultR_eq_resultK _ _ (hfin c).1 (hfin c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
